-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v11_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v11_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S3200000x6 : Shape := ⟨2, ![3200000, 6]⟩
abbrev S3200000 : Shape := ⟨1, ![3200000]⟩
abbrev S70x32 : Shape := ⟨2, ![70, 32]⟩
abbrev S32 : Shape := ⟨1, ![32]⟩
abbrev S32x6 : Shape := ⟨2, ![32, 6]⟩
abbrev S6 : Shape := ⟨1, ![6]⟩
abbrev S38x64 : Shape := ⟨2, ![38, 64]⟩
abbrev S64 : Shape := ⟨1, ![64]⟩
abbrev S64x32 : Shape := ⟨2, ![64, 32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S3200000x6 : S_.BroadcastsInDim S3200000x6 (![] : Fin 0 → Fin S3200000x6.rank)
  reducesTo_S3200000x6_S_d0_1 : S3200000x6.ReducesTo [0, 1] S_
  bcast_S_S70x32 : S_.BroadcastsInDim S70x32 (![] : Fin 0 → Fin S70x32.rank)
  reducesTo_S70x32_S_d0_1 : S70x32.ReducesTo [0, 1] S_
  bcast_S_S32 : S_.BroadcastsInDim S32 (![] : Fin 0 → Fin S32.rank)
  reducesTo_S32_S_d0 : S32.ReducesTo [0] S_
  bcast_S_S32x6 : S_.BroadcastsInDim S32x6 (![] : Fin 0 → Fin S32x6.rank)
  reducesTo_S32x6_S_d0_1 : S32x6.ReducesTo [0, 1] S_
  bcast_S_S6 : S_.BroadcastsInDim S6 (![] : Fin 0 → Fin S6.rank)
  reducesTo_S6_S_d0 : S6.ReducesTo [0] S_
  bcast_S_S38x64 : S_.BroadcastsInDim S38x64 (![] : Fin 0 → Fin S38x64.rank)
  reducesTo_S38x64_S_d0_1 : S38x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S3200000 : S_.BroadcastsInDim S3200000 (![] : Fin 0 → Fin S3200000.rank)
  reducesTo_S3200000_S_d0 : S3200000.ReducesTo [0] S_

variable [Facts]

def fn_part3 {F : FTy → Type} [FloatOps F] (main_arg2 : IVec S3200000 32) (main_arg3 : IVec S3200000 32) (main_v48 : IVec S_ 1) (main_v50 : IVec S3200000 1) : IVec S_ 1 :=
  let main_c_19 : IVec S_ 1 := constantI S_ 1 1#1
  let main_v51 : IVec S_ 1 := (fun x v => Host.reduce IntOp.andi x v reducesTo_S3200000_S_d0 h_S_) main_v50 main_c_19
  let main_v52 : IVec S_ 1 := andi main_v48 main_v51
  let main_c_20 : IVec S_ 32 := constantI S_ 32 99999#32
  let main_v53 : IVec S3200000 32 := broadcastInDim S3200000 ![] bcast_S_S3200000 main_c_20
  let main_v54 : IVec S3200000 1 := cmpi .sle main_arg2 main_v53
  let main_c_21 : IVec S_ 1 := constantI S_ 1 1#1
  let main_v55 : IVec S_ 1 := (fun x v => Host.reduce IntOp.andi x v reducesTo_S3200000_S_d0 h_S_) main_v54 main_c_21
  let main_v56 : IVec S_ 1 := andi main_v52 main_v55
  let main_c_22 : IVec S_ 32 := constantI S_ 32 0#32
  let main_v57 : IVec S3200000 32 := broadcastInDim S3200000 ![] bcast_S_S3200000 main_c_22
  let main_v58 : IVec S3200000 1 := cmpi .sge main_arg3 main_v57
  let main_c_23 : IVec S_ 1 := constantI S_ 1 1#1
  let main_v59 : IVec S_ 1 := (fun x v => Host.reduce IntOp.andi x v reducesTo_S3200000_S_d0 h_S_) main_v58 main_c_23
  let main_v60 : IVec S_ 1 := andi main_v56 main_v59
  let main_c_24 : IVec S_ 32 := constantI S_ 32 99999#32
  let main_v61 : IVec S3200000 32 := broadcastInDim S3200000 ![] bcast_S_S3200000 main_c_24
  let main_v62 : IVec S3200000 1 := cmpi .sle main_arg3 main_v61
  let main_c_25 : IVec S_ 1 := constantI S_ 1 1#1
  let main_v63 : IVec S_ 1 := (fun x v => Host.reduce IntOp.andi x v reducesTo_S3200000_S_d0 h_S_) main_v62 main_c_25
  let main_v64 : IVec S_ 1 := andi main_v60 main_v63
  main_v64

def fn_part2 {F : FTy → Type} [FloatOps F] (main_arg2 : IVec S3200000 32) (main_arg3 : IVec S3200000 32) (main_arg9 : FVec F S64 .f32) (main_arg10 : FVec F S64x32 .f32) (main_arg11 : FVec F S32 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg10
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_c_18 : IVec S_ 32 := constantI S_ 32 0#32
  let main_v49 : IVec S3200000 32 := broadcastInDim S3200000 ![] bcast_S_S3200000 main_c_18
  let main_v50 : IVec S3200000 1 := cmpi .sge main_arg2 main_v49
  fn_part3 (F := F) main_arg2 main_arg3 main_v48 main_v50

def fn_part1 {F : FTy → Type} [FloatOps F] (main_arg2 : IVec S3200000 32) (main_arg3 : IVec S3200000 32) (main_arg6 : FVec F S32x6 .f32) (main_arg7 : FVec F S6 .f32) (main_arg8 : FVec F S38x64 .f32) (main_arg9 : FVec F S64 .f32) (main_arg10 : FVec F S64x32 .f32) (main_arg11 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x6 .f32 := Host.absf main_arg6
  let main_cst_6 : FVec F S_ .f32 := constant S_ .f32 0x7F800000#32
  let main_v20 : FVec F S32x6 .f32 := broadcastInDim S32x6 ![] bcast_S_S32x6 main_cst_6
  let main_v21 : IVec S32x6 1 := cmpf .olt main_v19 main_v20
  let main_c_7 : IVec S_ 1 := constantI S_ 1 1#1
  let main_v22 : IVec S_ 1 := (fun x v => Host.reduce IntOp.andi x v reducesTo_S32x6_S_d0_1 h_S_) main_v21 main_c_7
  let main_v23 : IVec S_ 1 := andi main_v18 main_v22
  let main_v24 : FVec F S6 .f32 := Host.absf main_arg7
  let main_cst_8 : FVec F S_ .f32 := constant S_ .f32 0x7F800000#32
  let main_v25 : FVec F S6 .f32 := broadcastInDim S6 ![] bcast_S_S6 main_cst_8
  let main_v26 : IVec S6 1 := cmpf .olt main_v24 main_v25
  let main_c_9 : IVec S_ 1 := constantI S_ 1 1#1
  let main_v27 : IVec S_ 1 := (fun x v => Host.reduce IntOp.andi x v reducesTo_S6_S_d0 h_S_) main_v26 main_c_9
  let main_v28 : IVec S_ 1 := andi main_v23 main_v27
  let main_v29 : FVec F S38x64 .f32 := Host.absf main_arg8
  let main_cst_10 : FVec F S_ .f32 := constant S_ .f32 0x7F800000#32
  let main_v30 : FVec F S38x64 .f32 := broadcastInDim S38x64 ![] bcast_S_S38x64 main_cst_10
  let main_v31 : IVec S38x64 1 := cmpf .olt main_v29 main_v30
  let main_c_11 : IVec S_ 1 := constantI S_ 1 1#1
  let main_v32 : IVec S_ 1 := (fun x v => Host.reduce IntOp.andi x v reducesTo_S38x64_S_d0_1 h_S_) main_v31 main_c_11
  let main_v33 : IVec S_ 1 := andi main_v28 main_v32
  fn_part2 (F := F) main_arg2 main_arg3 main_arg9 main_arg10 main_arg11 main_v33

def fn {F : FTy → Type} [FloatOps F] (main_arg0 : FVec F S100000x32 .f32) (main_arg1 : FVec F S3200000x6 .f32) (main_arg2 : IVec S3200000 32) (main_arg3 : IVec S3200000 32) (main_arg4 : FVec F S70x32 .f32) (main_arg5 : FVec F S32 .f32) (main_arg6 : FVec F S32x6 .f32) (main_arg7 : FVec F S6 .f32) (main_arg8 : FVec F S38x64 .f32) (main_arg9 : FVec F S64 .f32) (main_arg10 : FVec F S64x32 .f32) (main_arg11 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S3200000x6 .f32 := Host.absf main_arg1
  let main_cst_0 : FVec F S_ .f32 := constant S_ .f32 0x7F800000#32
  let main_v5 : FVec F S3200000x6 .f32 := broadcastInDim S3200000x6 ![] bcast_S_S3200000x6 main_cst_0
  let main_v6 : IVec S3200000x6 1 := cmpf .olt main_v4 main_v5
  let main_c_1 : IVec S_ 1 := constantI S_ 1 1#1
  let main_v7 : IVec S_ 1 := (fun x v => Host.reduce IntOp.andi x v reducesTo_S3200000x6_S_d0_1 h_S_) main_v6 main_c_1
  let main_v8 : IVec S_ 1 := andi main_v3 main_v7
  let main_v9 : FVec F S70x32 .f32 := Host.absf main_arg4
  let main_cst_2 : FVec F S_ .f32 := constant S_ .f32 0x7F800000#32
  let main_v10 : FVec F S70x32 .f32 := broadcastInDim S70x32 ![] bcast_S_S70x32 main_cst_2
  let main_v11 : IVec S70x32 1 := cmpf .olt main_v9 main_v10
  let main_c_3 : IVec S_ 1 := constantI S_ 1 1#1
  let main_v12 : IVec S_ 1 := (fun x v => Host.reduce IntOp.andi x v reducesTo_S70x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg2 main_arg3 main_arg6 main_arg7 main_arg8 main_arg9 main_arg10 main_arg11 main_v13 main_v16
-- ==== Kernel.lean ====
abbrev S100000x32 : Shape := ⟨2, ![100000, 32]⟩
abbrev S3200000x6 : Shape := ⟨2, ![3200000, 6]⟩
abbrev S3200000 : Shape := ⟨1, ![3200000]⟩
abbrev S70x32 : Shape := ⟨2, ![70, 32]⟩
abbrev S32 : Shape := ⟨1, ![32]⟩
abbrev S32x6 : Shape := ⟨2, ![32, 6]⟩
abbrev S6 : Shape := ⟨1, ![6]⟩
abbrev S38x64 : Shape := ⟨2, ![38, 64]⟩
abbrev S64 : Shape := ⟨1, ![64]⟩
abbrev S64x32 : Shape := ⟨2, ![64, 32]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3200000x32 : Shape := ⟨2, ![3200000, 32]⟩
abbrev S32x32 : Shape := ⟨2, ![32, 32]⟩
abbrev S6x32 : Shape := ⟨2, ![6, 32]⟩
abbrev S1x32 : Shape := ⟨2, ![1, 32]⟩
abbrev S1x6 : Shape := ⟨2, ![1, 6]⟩
abbrev S32x64 : Shape := ⟨2, ![32, 64]⟩
abbrev S6x64 : Shape := ⟨2, ![6, 64]⟩
abbrev S1x64 : Shape := ⟨2, ![1, 64]⟩
abbrev S4000x32 : Shape := ⟨2, ![4000, 32]⟩
abbrev S4000x6 : Shape := ⟨2, ![4000, 6]⟩
abbrev S4000x64 : Shape := ⟨2, ![4000, 64]⟩

abbrev nBuf : Space → Nat
  | .hbm => 73
  | .vmem => 21
  | .smem => 0
  | _ => 0

abbrev bufTy : (tb : Table) → Fin (tcTables nBuf tb) → BufTy
  | .hbm, ⟨0, _⟩ => ⟨S100000x32, .f32⟩
  | .hbm, ⟨1, _⟩ => ⟨S3200000x6, .f32⟩
  | .hbm, ⟨2, _⟩ => ⟨S3200000, .i32⟩
  | .hbm, ⟨3, _⟩ => ⟨S3200000, .i32⟩
  | .hbm, ⟨4, _⟩ => ⟨S70x32, .f32⟩
  | .hbm, ⟨5, _⟩ => ⟨S32, .f32⟩
  | .hbm, ⟨6, _⟩ => ⟨S32x6, .f32⟩
  | .hbm, ⟨7, _⟩ => ⟨S6, .f32⟩
  | .hbm, ⟨8, _⟩ => ⟨S38x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S1, .i32⟩
  | .hbm, ⟨21, _⟩ => ⟨S_, .i32⟩
  | .hbm, ⟨22, _⟩ => ⟨S3200000x1, .i32⟩
  | .hbm, ⟨23, _⟩ => ⟨S3200000x1, .i1⟩
  | .hbm, ⟨24, _⟩ => ⟨S1x1, .i32⟩
  | .hbm, ⟨25, _⟩ => ⟨S3200000x1, .i32⟩
  | .hbm, ⟨26, _⟩ => ⟨S3200000x1, .i1⟩
  | .hbm, ⟨27, _⟩ => ⟨S3200000x1, .i1⟩
  | .hbm, ⟨28, _⟩ => ⟨S_, .i1⟩
  | .hbm, ⟨29, _⟩ => ⟨S3200000, .i1⟩
  | .hbm, ⟨30, _⟩ => ⟨S3200000x32, .f32⟩
  | .hbm, ⟨31, _⟩ => ⟨S3200000x32, .i1⟩
  | .hbm, ⟨32, _⟩ => ⟨S_, .f32⟩
  | .hbm, ⟨33, _⟩ => ⟨S3200000x32, .f32⟩
  | .hbm, ⟨34, _⟩ => ⟨S3200000x32, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S1, .i32⟩
  | .hbm, ⟨44, _⟩ => ⟨S_, .i32⟩
  | .hbm, ⟨45, _⟩ => ⟨S3200000x1, .i32⟩
  | .hbm, ⟨46, _⟩ => ⟨S3200000x1, .i1⟩
  | .hbm, ⟨47, _⟩ => ⟨S1x1, .i32⟩
  | .hbm, ⟨48, _⟩ => ⟨S3200000x1, .i32⟩
  | .hbm, ⟨49, _⟩ => ⟨S3200000x1, .i1⟩
  | .hbm, ⟨50, _⟩ => ⟨S3200000x1, .i1⟩
  | .hbm, ⟨51, _⟩ => ⟨S_, .i1⟩
  | .hbm, ⟨52, _⟩ => ⟨S3200000, .i1⟩
  | .hbm, ⟨53, _⟩ => ⟨S3200000x32, .f32⟩
  | .hbm, ⟨54, _⟩ => ⟨S3200000x32, .i1⟩
  | .hbm, ⟨55, _⟩ => ⟨S_, .f32⟩
  | .hbm, ⟨56, _⟩ => ⟨S3200000x32, .f32⟩
  | .hbm, ⟨57, _⟩ => ⟨S3200000x32, .f32⟩
  | .hbm, ⟨58, _⟩ => ⟨S32x32, .f32⟩
  | .hbm, ⟨59, _⟩ => ⟨S32x32, .f32⟩
  | .hbm, ⟨60, _⟩ => ⟨S6x32, .f32⟩
  | .hbm, ⟨61, _⟩ => ⟨S1x32, .f32⟩
  | .hbm, ⟨62, _⟩ => ⟨S1x6, .f32⟩
  | .hbm, ⟨63, _⟩ => ⟨S32x64, .f32⟩
  | .hbm, ⟨64, _⟩ => ⟨S6x64, .f32⟩
  | .hbm, ⟨65, _⟩ => ⟨S1x64, .f32⟩
  | .hbm, ⟨66, _⟩ => ⟨S1x32, .f32⟩
  | .hbm, ⟨67, _⟩ => ⟨S3200000x6, .f32⟩
  | .hbm, ⟨68, _⟩ => ⟨S3200000x32, .f32⟩
  | .hbm, ⟨69, _⟩ => ⟨S_, .f32⟩
  | .hbm, ⟨70, _⟩ => ⟨S100000x32, .f32⟩
  | .hbm, ⟨71, _⟩ => ⟨S3200000x1, .i32⟩
  | .hbm, ⟨72, _⟩ => ⟨S100000x32, .f32⟩
  | .local _ .vmem, ⟨0, _⟩ => ⟨S4000x32, .f32⟩
  | .local _ .vmem, ⟨1, _⟩ => ⟨S4000x32, .f32⟩
  | .local _ .vmem, ⟨2, _⟩ => ⟨S4000x32, .f32⟩
  | .local _ .vmem, ⟨3, _⟩ => ⟨S4000x32, .f32⟩
  | .local _ .vmem, ⟨4, _⟩ => ⟨S4000x6, .f32⟩
  | .local _ .vmem, ⟨5, _⟩ => ⟨S4000x6, .f32⟩
  | .local _ .vmem, ⟨6, _⟩ => ⟨S32x32, .f32⟩
  | .local _ .vmem, ⟨7, _⟩ => ⟨S32x32, .f32⟩
  | .local _ .vmem, ⟨8, _⟩ => ⟨S6x32, .f32⟩
  | .local _ .vmem, ⟨9, _⟩ => ⟨S1x32, .f32⟩
  | .local _ .vmem, ⟨10, _⟩ => ⟨S32x6, .f32⟩
  | .local _ .vmem, ⟨11, _⟩ => ⟨S1x6, .f32⟩
  | .local _ .vmem, ⟨12, _⟩ => ⟨S32x64, .f32⟩
  | .local _ .vmem, ⟨13, _⟩ => ⟨S6x64, .f32⟩
  | .local _ .vmem, ⟨14, _⟩ => ⟨S1x64, .f32⟩
  | .local _ .vmem, ⟨15, _⟩ => ⟨S64x32, .f32⟩
  | .local _ .vmem, ⟨16, _⟩ => ⟨S1x32, .f32⟩
  | .local _ .vmem, ⟨17, _⟩ => ⟨S4000x6, .f32⟩
  | .local _ .vmem, ⟨18, _⟩ => ⟨S4000x6, .f32⟩
  | .local _ .vmem, ⟨19, _⟩ => ⟨S4000x32, .f32⟩
  | .local _ .vmem, ⟨20, _⟩ => ⟨S4000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v1 : Ref sig .tc := ⟨.hbm, 57, rfl⟩
abbrev main_v2 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11_0 : Ref sig .tc := ⟨.hbm, 67, rfl⟩
abbrev main_v11_1 : Ref sig .tc := ⟨.hbm, 68, rfl⟩
abbrev main_cst : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x6 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4000x6 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4000x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x32_0 : S3200000.BroadcastsInDim S3200000x32 (![0] : Fin 1 → Fin S3200000x32.rank)
  bcast_S_S3200000x32 : S_.BroadcastsInDim S3200000x32 (![] : Fin 0 → Fin S3200000x32.rank)
  slices_S70x32_S32x32_0_0 : S70x32.Slices ![0, 0] S32x32
  slices_S70x32_S32x32_32_0 : S70x32.Slices ![32, 0] S32x32
  slices_S70x32_S6x32_64_0 : S70x32.Slices ![64, 0] S6x32
  shapeCasts_S32_S1x32 : S32.ShapeCasts S1x32
  shapeCasts_S6_S1x6 : S6.ShapeCasts S1x6
  slices_S38x64_S32x64_0_0 : S38x64.Slices ![0, 0] S32x64
  slices_S38x64_S6x64_32_0 : S38x64.Slices ![32, 0] S6x64
  shapeCasts_S64_S1x64 : S64.ShapeCasts S1x64
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S4000x6_S4000x6_0_0 : ∀ a, (![0, 0] : Fin 2 → Nat) a + S4000x6.size a ≤ S4000x6.size a
  h_S4000x6 : 0 < S4000x6.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S6x32_S6x32_0_0 : ∀ a, (![0, 0] : Fin 2 → Nat) a + S6x32.size a ≤ S6x32.size a
  h_S6x32 : 0 < S6x32.numel
  shapeCasts_S6x32_S6x32 : S6x32.ShapeCasts S6x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x6_S32x6_0_0 : ∀ a, (![0, 0] : Fin 2 → Nat) a + S32x6.size a ≤ S32x6.size a
  h_S32x6 : 0 < S32x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S4000x6 : S1x6.Broadcasts S4000x6
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S6x64_S6x64_0_0 : ∀ a, (![0, 0] : Fin 2 → Nat) a + S6x64.size a ≤ S6x64.size a
  h_S6x64 : 0 < S6x64.numel
  shapeCasts_S6x64_S6x64 : S6x64.ShapeCasts S6x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  bcast_S_S100000x32 : S_.BroadcastsInDim S100000x32 (![] : Fin 0 → Fin S100000x32.rank)
  gather_S100000x32_S3200000x1_S3200000x32_1_0_n_n_0_1_132_wf : GatherDims.WF S100000x32 S3200000x1 S3200000x32 [1] [0] [] [0] [] 1 ![1, 32]
  dot_S4000x32_S32x32_S4000x32_1_0_0_1_n_n_wf : DotDims.WF S4000x32 S32x32 S4000x32 [1] [0] [0] [1] [] []
  dot_S4000x6_S6x32_S4000x32_1_0_0_1_n_n_wf : DotDims.WF S4000x6 S6x32 S4000x32 [1] [0] [0] [1] [] []
  dot_S4000x32_S32x6_S4000x6_1_0_0_1_n_n_wf : DotDims.WF S4000x32 S32x6 S4000x6 [1] [0] [0] [1] [] []
  dot_S4000x32_S32x64_S4000x64_1_0_0_1_n_n_wf : DotDims.WF S4000x32 S32x64 S4000x64 [1] [0] [0] [1] [] []
  dot_S4000x6_S6x64_S4000x64_1_0_0_1_n_n_wf : DotDims.WF S4000x6 S6x64 S4000x64 [1] [0] [0] [1] [] []
  dot_S4000x64_S64x32_S4000x32_1_0_0_1_n_n_wf : DotDims.WF S4000x64 S64x32 S4000x32 [1] [0] [0] [1] [] []
  scatter_S100000x32_S3200000x1_S3200000x32_1_0_0_1_wf : ScatterDims.WF S100000x32 S3200000x1 S3200000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S3200000x32.size a
  hwx0_0 : ∀ i : grid0.Coords, EltTy.bits .f32 = 32 ∨ (Rect.block (s := S3200000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S3200000x32.size a
  hwx0_1 : ∀ i : grid0.Coords, EltTy.bits .f32 = 32 ∨ (Rect.block (s := S3200000x32) S4000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x6.size a ≤ S3200000x6.size a
  hwx0_2 : ∀ i : grid0.Coords, EltTy.bits .f32 = 32 ∨ (Rect.block (s := S3200000x6) S4000x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x32.size a ≤ S6x32.size a
  hwx0_5 : ∀ i : grid0.Coords, EltTy.bits .f32 = 32 ∨ (Rect.block (s := S6x32) S6x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x6.size a ≤ S32x6.size a
  hwx0_7 : ∀ i : grid0.Coords, EltTy.bits .f32 = 32 ∨ (Rect.block (s := S32x6) S32x6.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x6.size a ≤ S1x6.size a
  hwx0_8 : ∀ i : grid0.Coords, EltTy.bits .f32 = 32 ∨ (Rect.block (s := S1x6) S1x6.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x64.size a ≤ S32x64.size a
  hwx0_9 : ∀ i : grid0.Coords, EltTy.bits .f32 = 32 ∨ (Rect.block (s := S32x64) S32x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S6x64.size a ≤ S6x64.size a
  hwx0_10 : ∀ i : grid0.Coords, EltTy.bits .f32 = 32 ∨ (Rect.block (s := S6x64) S6x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x32.size a ≤ S64x32.size a
  hwx0_12 : ∀ i : grid0.Coords, EltTy.bits .f32 = 32 ∨ (Rect.block (s := S64x32) S64x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x32.size a ≤ S1x32.size a
  hwx0_13 : ∀ i : grid0.Coords, EltTy.bits .f32 = 32 ∨ (Rect.block (s := S1x32) S1x32.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x6.size a ≤ S3200000x6.size a
  hwx0_14 : ∀ i : grid0.Coords, EltTy.bits .f32 = 32 ∨ (Rect.block (s := S3200000x6) S4000x6.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4000x32.size a ≤ S3200000x32.size a
  hwx0_15 : ∀ i : grid0.Coords, EltTy.bits .f32 = 32 ∨ (Rect.block (s := S3200000x32) S4000x32.size (cc0_transform_15 i) (hinb0_15 i)).WholeWords (EltTy.packing .f32)

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S4000x6_S6x32_S4000x32_1_0_0_1_n_n : DotDims S4000x6 S6x32 S4000x32 where
  lhsContracting := [1]
  rhsContracting := [0]
  lhsNonContracting := [0]
  rhsNonContracting := [1]
  lhsBatch := []
  rhsBatch := []
  wf := dot_S4000x6_S6x32_S4000x32_1_0_0_1_n_n_wf
def dot_S4000x32_S32x6_S4000x6_1_0_0_1_n_n : DotDims S4000x32 S32x6 S4000x6 where
  lhsContracting := [1]
  rhsContracting := [0]
  lhsNonContracting := [0]
  rhsNonContracting := [1]
  lhsBatch := []
  rhsBatch := []
  wf := dot_S4000x32_S32x6_S4000x6_1_0_0_1_n_n_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def dot_S4000x6_S6x64_S4000x64_1_0_0_1_n_n : DotDims S4000x6 S6x64 S4000x64 where
  lhsContracting := [1]
  rhsContracting := [0]
  lhsNonContracting := [0]
  rhsNonContracting := [1]
  lhsBatch := []
  rhsBatch := []
  wf := dot_S4000x6_S6x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

abbrev win0_0 : Pipeline.Window sig grid0 :=
  Pipeline.Window.ofSpec (Memref.whole main_v0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S6x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S32x6.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x6.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S32x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S6x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S64x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S1x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v11_0) S4000x6.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v11_1) S4000x32.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S100000x32 : Shape := ⟨2, ![100000, 32]⟩
abbrev S3200000x6 : Shape := ⟨2, ![3200000, 6]⟩
abbrev S3200000 : Shape := ⟨1, ![3200000]⟩
abbrev S70x32 : Shape := ⟨2, ![70, 32]⟩
abbrev S32 : Shape := ⟨1, ![32]⟩
abbrev S32x6 : Shape := ⟨2, ![32, 6]⟩
abbrev S6 : Shape := ⟨1, ![6]⟩
abbrev S38x64 : Shape := ⟨2, ![38, 64]⟩
abbrev S64 : Shape := ⟨1, ![64]⟩
abbrev S64x32 : Shape := ⟨2, ![64, 32]⟩
abbrev S_ : Shape := ⟨0, ![]⟩
abbrev S3200000x1 : Shape := ⟨2, ![3200000, 1]⟩
abbrev S3200000x32 : Shape := ⟨2, ![3200000, 32]⟩
abbrev S3200000x70 : Shape := ⟨2, ![3200000, 70]⟩
abbrev S1x32 : Shape := ⟨2, ![1, 32]⟩
abbrev S1x6 : Shape := ⟨2, ![1, 6]⟩
abbrev S3200000x38 : Shape := ⟨2, ![3200000, 38]⟩
abbrev S3200000x64 : Shape := ⟨2, ![3200000, 64]⟩
abbrev S1x64 : Shape := ⟨2, ![1, 64]⟩

abbrev nBuf : Space → Nat
  | .hbm => 58
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S3200000x6, .f32⟩
  | .hbm, ⟨2, _⟩ => ⟨S3200000, .i32⟩
  | .hbm, ⟨3, _⟩ => ⟨S3200000, .i32⟩
  | .hbm, ⟨4, _⟩ => ⟨S70x32, .f32⟩
  | .hbm, ⟨5, _⟩ => ⟨S32, .f32⟩
  | .hbm, ⟨6, _⟩ => ⟨S32x6, .f32⟩
  | .hbm, ⟨7, _⟩ => ⟨S6, .f32⟩
  | .hbm, ⟨8, _⟩ => ⟨S38x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x32, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000x32, .f32⟩
  | .hbm, ⟨30, _⟩ => ⟨S3200000x70, .f32⟩
  | .hbm, ⟨31, _⟩ => ⟨S3200000x32, .f32⟩
  | .hbm, ⟨32, _⟩ => ⟨S1x32, .f32⟩
  | .hbm, ⟨33, _⟩ => ⟨S3200000x32, .f32⟩
  | .hbm, ⟨34, _⟩ => ⟨S3200000x32, .f32⟩
  | .hbm, ⟨35, _⟩ => ⟨S_, .f32⟩
  | .hbm, ⟨36, _⟩ => ⟨S3200000x32, .f32⟩
  | .hbm, ⟨37, _⟩ => ⟨S3200000x32, .f32⟩
  | .hbm, ⟨38, _⟩ => ⟨S3200000x6, .f32⟩
  | .hbm, ⟨39, _⟩ => ⟨S1x6, .f32⟩
  | .hbm, ⟨40, _⟩ => ⟨S3200000x6, .f32⟩
  | .hbm, ⟨41, _⟩ => ⟨S3200000x6, .f32⟩
  | .hbm, ⟨42, _⟩ => ⟨S3200000x38, .f32⟩
  | .hbm, ⟨43, _⟩ => ⟨S3200000x64, .f32⟩
  | .hbm, ⟨44, _⟩ => ⟨S1x64, .f32⟩
  | .hbm, ⟨45, _⟩ => ⟨S3200000x64, .f32⟩
  | .hbm, ⟨46, _⟩ => ⟨S3200000x64, .f32⟩
  | .hbm, ⟨47, _⟩ => ⟨S_, .f32⟩
  | .hbm, ⟨48, _⟩ => ⟨S3200000x64, .f32⟩
  | .hbm, ⟨49, _⟩ => ⟨S3200000x64, .f32⟩
  | .hbm, ⟨50, _⟩ => ⟨S3200000x32, .f32⟩
  | .hbm, ⟨51, _⟩ => ⟨S1x32, .f32⟩
  | .hbm, ⟨52, _⟩ => ⟨S3200000x32, .f32⟩
  | .hbm, ⟨53, _⟩ => ⟨S3200000x32, .f32⟩
  | .hbm, ⟨54, _⟩ => ⟨S_, .f32⟩
  | .hbm, ⟨55, _⟩ => ⟨S100000x32, .f32⟩
  | .hbm, ⟨56, _⟩ => ⟨S3200000x1, .i32⟩
  | .hbm, ⟨57, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x32_S3200000x32_S3200000x6_S3200000x70_d1 : Shape.Concatenates [S3200000x32, S3200000x32, S3200000x6] S3200000x70 1
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  bcast_S6_S1x6_1 : S6.BroadcastsInDim S1x6 (![1] : Fin 1 → Fin S1x6.rank)
  bcast_S1x6_S3200000x6_0_1 : S1x6.BroadcastsInDim S3200000x6 (![0, 1] : Fin 2 → Fin S3200000x6.rank)
  concatenates_S3200000x32_S3200000x6_S3200000x38_d1 : Shape.Concatenates [S3200000x32, S3200000x6] S3200000x38 1
  bcast_S64_S1x64_1 : S64.BroadcastsInDim S1x64 (![1] : Fin 1 → Fin S1x64.rank)
  bcast_S1x64_S3200000x64_0_1 : S1x64.BroadcastsInDim S3200000x64 (![0, 1] : Fin 2 → Fin S3200000x64.rank)
  bcast_S_S3200000x64 : S_.BroadcastsInDim S3200000x64 (![] : Fin 0 → Fin S3200000x64.rank)
  bcast_S_S100000x32 : S_.BroadcastsInDim S100000x32 (![] : Fin 0 → Fin S100000x32.rank)
  gather_S100000x32_S3200000x1_S3200000x32_1_0_n_n_0_1_132_wf : GatherDims.WF S100000x32 S3200000x1 S3200000x32 [1] [0] [] [0] [] 1 ![1, 32]
  dot_S3200000x70_S70x32_S3200000x32_1_0_0_1_n_n_wf : DotDims.WF S3200000x70 S70x32 S3200000x32 [1] [0] [0] [1] [] []
  dot_S3200000x32_S32x6_S3200000x6_1_0_0_1_n_n_wf : DotDims.WF S3200000x32 S32x6 S3200000x6 [1] [0] [0] [1] [] []
  dot_S3200000x38_S38x64_S3200000x64_1_0_0_1_n_n_wf : DotDims.WF S3200000x38 S38x64 S3200000x64 [1] [0] [0] [1] [] []
  dot_S3200000x64_S64x32_S3200000x32_1_0_0_1_n_n_wf : DotDims.WF S3200000x64 S64x32 S3200000x32 [1] [0] [0] [1] [] []
  scatter_S100000x32_S3200000x1_S3200000x32_1_0_0_1_wf : ScatterDims.WF S100000x32 S3200000x1 S3200000x32 [1] [0] [0] 1

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S3200000x70_S70x32_S3200000x32_1_0_0_1_n_n : DotDims S3200000x70 S70x32 S3200000x32 where
  lhsContracting := [1]
  rhsContracting := [0]
  lhsNonContracting := [0]
  rhsNonContracting := [1]
  lhsBatch := []
  rhsBatch := []
  wf := dot_S3200000x70_S70x32_S3200000x32_1_0_0_1_n_n_wf
def dot_S3200000x32_S32x6_S3200000x6_1_0_0_1_n_n : DotDims S3200000x32 S32x6 S3200000x6 where
  lhsContracting := [1]
  rhsContracting := [0]
  lhsNonContracting := [0]
  rhsNonContracting := [1]
  lhsBatch := []
  rhsBatch := []
  wf := dot_S3200000x32_S32x6_S3200000x6_1_0_0_1_n_n_wf
def dot_S3200000x38_S38x64_S3200000x64_1_0_0_1_n_n : DotDims S3200000x38 S38x64 S3200000x64 where
  lhsContracting := [1]
  rhsContracting := [0]
  lhsNonContracting := [0]
  rhsNonContracting := [1]
  lhsBatch := []
  rhsBatch := []
  wf := dot_S3200000x38_S38x64_S3200000x64_1_0_0_1_n_n_wf
def dot_S3200000x64_S64x32_S3200000x32_1_0_0_1_n_n : DotDims S3200000x64 S64x32 S3200000x32 where
  lhsContracting := [1]
  rhsContracting := [0]
  lhsNonContracting := [0]
  rhsNonContracting := [1]
  lhsBatch := []
  rhsBatch := []
  wf := dot_S3200000x64_S64x32_S3200000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

class Facts : Prop extends Facts₀ where

variable [Facts]
-- ==== Proof.KTake.lean ====
/-
  Row lookup with an out-of-range fill.  The kernel's program reads row `idx e` of the node table for every edge e: it
  wraps a negative index by the table's length, marks the edges whose wrapped index lies in [0, 99999], gathers the
  rows, and where the mark is clear replaces the gathered row by a fill value.  When every index already lies in
  [0, 99999] the wrap leaves it alone, every mark is set and the lookup is the plain gather at the wrapped index.
-/
import proofs.«402939_j77352361001089_1_alg».proof.Proof.Gen.KernelIdeal
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate

noncomputable section

namespace Cert.KernelIdeal.Take

open Cert.KernelIdeal Cert.KernelIdeal.Gen Idealize.ShloMosaic Idealize.ShloMosaic.ValueIdx

variable {F : FTy → Type} [FloatOps F]

/-- The index column the gather reads: a negative index moved up by the table's 100000 rows, others kept. -/
def wrapIdx (idx : IVec S3200000 32) : IVec S3200000x1 32 :=
  broadcastInDim S3200000x1 ![0] bcast_S3200000_S3200000x1_0
    (select (cmpi .slt idx (broadcastInDim S3200000 ![] bcast_S_S3200000 (constantI S_ 32 0#32)))
      (addi idx (broadcastInDim S3200000 ![] bcast_S_S3200000 (constantI S_ 32 100000#32))) idx)

/-- The mark of the edges whose index column entry lies in [0, 99999], repeated along each row. -/
def inRange (W : IVec S3200000x1 32) : IVec S3200000x32 1 :=
  broadcastInDim S3200000x32 ![0] bcast_S3200000_S3200000x32_0
    (Host.reduce IntOp.andi
      (andi (cmpi .sge W (broadcastInDim S3200000x1 ![] bcast_S_S3200000x1 (constantI S_ 32 0#32)))
        (cmpi .sle W (broadcastInDim S3200000x1 ![0, 1] bcast_S1x1_S3200000x1_0_1
          (broadcastInDim S1x1 ![1] bcast_S1_S1x1_1 (constantI S1 32 99999#32)))))
      (constantI S_ 1 1#1) reducesTo_S3200000x1_S3200000_d1 h_S_)

/-- The looked-up rows: the gathered row where the mark is set, the fill value elsewhere. -/
def takeRows (x : FVec F S100000x32 .f32) (idx : IVec S3200000 32) : FVec F S3200000x32 .f32 :=
  select (inRange (wrapIdx idx))
    (Host.gather gather_S100000x32_S3200000x1_S3200000x32_1_0_n_n_0_1_132 x (wrapIdx idx))
    (broadcastInDim S3200000x32 ![] bcast_S_S3200000x32 (constant (F := F) S_ .f32 0x7FC00000#32))

/-! ## Words -/

/-- A signed word that is at least 0 is not below 0. -/
theorem slt_zero_of_sge_zero (x : BitVec 32) (h : IntOp.cmpi .sge x 0#32 = 1#1) : IntOp.cmpi .slt x 0#32 = 0#1 := by
  refine eq_zero_of_ne_one fun hlt => ?_
  have h1 := IntOp.cmpi_sge.1 h
  have h2 := IntOp.cmpi_slt.1 hlt
  omega

/-- A left fold by `and` that starts at 1 and meets only 1s comes out 1. -/
theorem foldl_andi_of_all_one {ι : Type} (f : ι → BitVec 1) :
    ∀ (l : List ι) (init : BitVec 1), init = 1#1 → (∀ n ∈ l, f n = 1#1) → l.foldl (fun r n => IntOp.andi r (f n)) init = 1#1
  | [], init, hi, _ => hi
  | a :: l, init, hi, h => by
    rw [List.foldl_cons]
    exact foldl_andi_of_all_one f l _ (IntOp.andi_eq_one.2 ⟨hi, h a (List.mem_cons_self ..)⟩)
      (fun n hn => h n (List.mem_cons_of_mem _ hn))

/-! ## Arrays -/

/-- An `and`-reduction from an all-1 initial value over an all-1 array is 1 at every result index. -/
theorem reduce_andi_of_all_one {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl]
  exact foldl_andi_of_all_one x _ _ (hinit _) (fun n _ => hx n)

/-- Every entry of a broadcast array is an entry of its operand: what holds of every entry of the operand holds of
    every entry of the result. -/
theorem broadcastInDim_of_forall {α : Type} {s t : Shape} (dims : Fin s.rank → Fin t.rank) (h : s.BroadcastsInDim t dims)
    (y : s.Idx → α) (P : α → Prop) (hy : ∀ e, P (y e)) (j : t.Idx) : P (broadcastInDim t dims h y j) := by
  unfold broadcastInDim
  exact hy _

/-- The wrap leaves an index that is at least 0 alone. -/
theorem wrap_keep (idx : IVec S3200000 32) (hge : ∀ i : S3200000.Idx, IntOp.cmpi .sge (idx i) 0#32 = 1#1) (e : S3200000.Idx) :
    select (cmpi .slt idx (broadcastInDim S3200000 ![] bcast_S_S3200000 (constantI S_ 32 0#32)))
      (addi idx (broadcastInDim S3200000 ![] bcast_S_S3200000 (constantI S_ 32 100000#32))) idx e = idx e := by
  have hc : cmpi .slt idx (broadcastInDim S3200000 ![] bcast_S_S3200000 (constantI S_ 32 0#32)) e = 0#1 := by
    show IntOp.cmpi .slt (idx e) (broadcastInDim S3200000 ![] bcast_S_S3200000 (constantI S_ 32 0#32) e) = 0#1
    rw [broadcastInDim_of_forall ![] bcast_S_S3200000 (constantI S_ 32 0#32) (· = 0#32) (fun _ => rfl) e]
    exact slt_zero_of_sge_zero _ (hge e)
  rw [select_apply, hc, select_zero]

/-- With every index in [0, 99999] every entry of the wrapped index column is in [0, 99999]. -/
theorem wrapIdx_in (idx : IVec S3200000 32) (hge : ∀ i : S3200000.Idx, IntOp.cmpi .sge (idx i) 0#32 = 1#1)
    (hle : ∀ i : S3200000.Idx, IntOp.cmpi .sle (idx i) 99999#32 = 1#1) (i : S3200000x1.Idx) :
    IntOp.cmpi .sge (wrapIdx idx i) 0#32 = 1#1 ∧ IntOp.cmpi .sle (wrapIdx idx i) 99999#32 = 1#1 := by
  unfold wrapIdx
  refine broadcastInDim_of_forall _ _ _ (fun w => IntOp.cmpi .sge w 0#32 = 1#1 ∧ IntOp.cmpi .sle w 99999#32 = 1#1)
    (fun e => ?_) i
  rw [wrap_keep idx hge e]
  exact ⟨hge e, hle e⟩

/-- Over an index column whose every entry is in [0, 99999] every mark is set. -/
theorem inRange_one (W : IVec S3200000x1 32)
    (hW : ∀ i, IntOp.cmpi .sge (W i) 0#32 = 1#1 ∧ IntOp.cmpi .sle (W i) 99999#32 = 1#1) (j : S3200000x32.Idx) :
    inRange W j = 1#1 := by
  unfold inRange
  refine broadcastInDim_of_forall _ _ _ (· = 1#1) (fun t => ?_) j
  refine reduce_andi_of_all_one _ _ _ _ (fun _ => rfl) (fun i => ?_) t
  show IntOp.andi
      (IntOp.cmpi .sge (W i) (broadcastInDim S3200000x1 ![] bcast_S_S3200000x1 (constantI S_ 32 0#32) i))
      (IntOp.cmpi .sle (W i) (broadcastInDim S3200000x1 ![0, 1] bcast_S1x1_S3200000x1_0_1
        (broadcastInDim S1x1 ![1] bcast_S1_S1x1_1 (constantI S1 32 99999#32)) i)) = 1#1
  rw [broadcastInDim_of_forall ![] bcast_S_S3200000x1 (constantI S_ 32 0#32) (· = 0#32) (fun _ => rfl) i,
    broadcastInDim_of_forall ![0, 1] bcast_S1x1_S3200000x1_0_1 (broadcastInDim S1x1 ![1] bcast_S1_S1x1_1 (constantI S1 32 99999#32))
      (· = 99999#32) (fun e => broadcastInDim_of_forall ![1] bcast_S1_S1x1_1 (constantI S1 32 99999#32) (· = 99999#32) (fun _ => rfl) e) i]
  exact IntOp.andi_eq_one.2 (hW i)

/-- With every index in [0, 99999] (as signed words) the lookup is the plain gather. -/
theorem takeRows_eq_gather (x : FVec F S100000x32 .f32) (idx : IVec S3200000 32)
    (hge : ∀ i : S3200000.Idx, IntOp.cmpi .sge (idx i) 0#32 = 1#1)
    (hle : ∀ i : S3200000.Idx, IntOp.cmpi .sle (idx i) 99999#32 = 1#1) :
    takeRows x idx = Host.gather gather_S100000x32_S3200000x1_S3200000x32_1_0_n_n_0_1_132 x (wrapIdx idx) := by
  funext j
  unfold takeRows
  rw [select_apply, inRange_one (wrapIdx idx) (wrapIdx_in idx hge hle) j, select_one]

end Cert.KernelIdeal.Take

end
-- ==== Proof.KHost.lean ====
/-
  What the kernel's program hands to its pipelined region.  Before the region the program looks up the destination
  and the source rows of every edge in the node table, cuts the first-layer weight matrices into the row blocks that
  meet the pieces of the concatenated input (rows 0–31, 32–63 and 64–69 of the 70-row matrix; rows 0–31 and 32–37 of
  the 38-row one) and views each bias vector as a one-row matrix.  Each array the region stages is therefore one
  operation applied to the launch contents of the arguments.
-/
import proofs.«402939_j77352361001089_1_alg».proof.Proof.Gen.KernelIdeal.Frame
import proofs.«402939_j77352361001089_1_alg».proof.Proof.KTake
import Idealize.ShloMosaic.Lib.StableHlo.Run
import Idealize.ShloMosaic.PureOps.Ideal

noncomputable section

namespace Cert.KernelIdeal.HostValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- Moving an array to a buffer's own type and back is the identity. -/
theorem ofBuf_toBuf {Val : EltTy → Type} {T : BufTy} (r : Ref sig .tc) (h1 h1' : r.ty = T) (h2 h2' : r.space ≠ .host)
    (h3 h3' : r.isScoped = false) (v : T.Contents Val) :
    (TRef.of r h1' h2' h3').ofBuf ((TRef.of r h1 h2 h3).toBuf v) = v := by
  subst h1; rfl

/-- The destination rows the region stages: the lookup of the node table at the destination indices. -/
theorem V_dstRows (c : Dev nD) :
    (V (F := Ideal) m c main_v0 : S3200000x32.Idx → EReal) = Take.takeRows (F := Ideal) (m ((c : Thread nD τ).loc main_arg0)) (m ((c : Thread nD τ).loc main_arg3)) := by
  dsimp only [Gen.V, Gen.V0]
  simp only [Gen.hostOps0, Gen.hostOps0_1, Gen.hostOps0_2, List.flatten_cons, List.flatten_nil, List.append_nil,
    List.cons_append, List.nil_append]
  after_results_simp
  -- every intermediate array is moved to its buffer's type and straight back
  repeat rw [ofBuf_toBuf]
  -- the two arguments' buffers have the arguments' types
  have ei : ∀ h1 h2 h3, (TRef.of main_arg3 h1 h2 h3 : TRef sig ⟨S3200000, .i32⟩).ofBuf (Val := Elt Ideal)
      (m (c, Proc.devRef .tc main_arg3)) = m ((c : Thread nD τ).loc main_arg3) := fun _ _ _ => rfl
  have ex : ∀ h1 h2 h3, (TRef.of main_arg0 h1 h2 h3 : TRef sig ⟨S100000x32, .f32⟩).ofBuf (Val := Elt Ideal)
      (m (c, Proc.devRef .tc main_arg0)) = m ((c : Thread nD τ).loc main_arg0) := fun _ _ _ => rfl
  rw [ei, ex]
  -- so has the result's
  refine Eq.trans (eq_of_heq (cast_heq _ _)) ?_
  unfold Take.takeRows Take.inRange Take.wrapIdx
  -- the mark, the gathered rows and the fill value, one at a time
  refine congr (congr (congrArg select ?_) ?_) ?_
  · congr 2
  · rfl
  · rfl

/-- The source rows the region stages: the lookup of the node table at the source indices. -/
theorem V_srcRows (c : Dev nD) :
    (V (F := Ideal) m c main_v1 : S3200000x32.Idx → EReal) = Take.takeRows (F := Ideal) (m ((c : Thread nD τ).loc main_arg0)) (m ((c : Thread nD τ).loc main_arg2)) := by
  dsimp only [Gen.V, Gen.V0]
  simp only [Gen.hostOps0, Gen.hostOps0_1, Gen.hostOps0_2, List.flatten_cons, List.flatten_nil, List.append_nil,
    List.cons_append, List.nil_append]
  after_results_simp
  -- every intermediate array is moved to its buffer's type and straight back
  repeat rw [ofBuf_toBuf]
  -- the two arguments' buffers have the arguments' types
  have ei : ∀ h1 h2 h3, (TRef.of main_arg2 h1 h2 h3 : TRef sig ⟨S3200000, .i32⟩).ofBuf (Val := Elt Ideal)
      (m (c, Proc.devRef .tc main_arg2)) = m ((c : Thread nD τ).loc main_arg2) := fun _ _ _ => rfl
  have ex : ∀ h1 h2 h3, (TRef.of main_arg0 h1 h2 h3 : TRef sig ⟨S100000x32, .f32⟩).ofBuf (Val := Elt Ideal)
      (m (c, Proc.devRef .tc main_arg0)) = m ((c : Thread nD τ).loc main_arg0) := fun _ _ _ => rfl
  rw [ei, ex]
  -- so has the result's
  refine Eq.trans (eq_of_heq (cast_heq _ _)) ?_
  unfold Take.takeRows Take.inRange Take.wrapIdx
  -- the mark, the gathered rows and the fill value, one at a time
  refine congr (congr (congrArg select ?_) ?_) ?_
  · congr 2
  · rfl
  · rfl

/-- Rows 0–31 of the edge network's first-layer matrix. -/
theorem V_We1d (c : Dev nD) :
    (V (F := Ideal) m c main_v2 : S32x32.Idx → EReal) = extractStridedSlice S32x32 ![0, 0] (m ((c : Thread nD τ).loc main_arg4)) slices_S70x32_S32x32_0_0 := by
  dsimp only [Gen.V, Gen.V0]
  simp only [Gen.hostOps0, Gen.hostOps0_1, Gen.hostOps0_2, List.flatten_cons, List.flatten_nil, List.append_nil,
    List.cons_append, List.nil_append]
  after_results_simp

/-- Rows 32–63 of the edge network's first-layer matrix. -/
theorem V_We1s (c : Dev nD) :
    (V (F := Ideal) m c main_v3 : S32x32.Idx → EReal) = extractStridedSlice S32x32 ![32, 0] (m ((c : Thread nD τ).loc main_arg4)) slices_S70x32_S32x32_32_0 := by
  dsimp only [Gen.V, Gen.V0]
  simp only [Gen.hostOps0, Gen.hostOps0_1, Gen.hostOps0_2, List.flatten_cons, List.flatten_nil, List.append_nil,
    List.cons_append, List.nil_append]
  after_results_simp

/-- Rows 64–69 of the edge network's first-layer matrix. -/
theorem V_We1e (c : Dev nD) :
    (V (F := Ideal) m c main_v4 : S6x32.Idx → EReal) = extractStridedSlice S6x32 ![64, 0] (m ((c : Thread nD τ).loc main_arg4)) slices_S70x32_S6x32_64_0 := by
  dsimp only [Gen.V, Gen.V0]
  simp only [Gen.hostOps0, Gen.hostOps0_1, Gen.hostOps0_2, List.flatten_cons, List.flatten_nil, List.append_nil,
    List.cons_append, List.nil_append]
  after_results_simp

/-- The edge network's first bias as a one-row matrix. -/
theorem V_be1 (c : Dev nD) :
    (V (F := Ideal) m c main_v5 : S1x32.Idx → EReal) = shapeCast S1x32 (m ((c : Thread nD τ).loc main_arg5)) shapeCasts_S32_S1x32 := by
  dsimp only [Gen.V, Gen.V0]
  simp only [Gen.hostOps0, Gen.hostOps0_1, Gen.hostOps0_2, List.flatten_cons, List.flatten_nil, List.append_nil,
    List.cons_append, List.nil_append]
  after_results_simp
  rfl

/-- The edge network's second bias as a one-row matrix. -/
theorem V_be2 (c : Dev nD) :
    (V (F := Ideal) m c main_v6 : S1x6.Idx → EReal) = shapeCast S1x6 (m ((c : Thread nD τ).loc main_arg7)) shapeCasts_S6_S1x6 := by
  dsimp only [Gen.V, Gen.V0]
  simp only [Gen.hostOps0, Gen.hostOps0_1, Gen.hostOps0_2, List.flatten_cons, List.flatten_nil, List.append_nil,
    List.cons_append, List.nil_append]
  after_results_simp
  rfl

/-- Rows 0–31 of the node network's first-layer matrix. -/
theorem V_Wn1d (c : Dev nD) :
    (V (F := Ideal) m c main_v7 : S32x64.Idx → EReal) = extractStridedSlice S32x64 ![0, 0] (m ((c : Thread nD τ).loc main_arg8)) slices_S38x64_S32x64_0_0 := by
  dsimp only [Gen.V, Gen.V0]
  simp only [Gen.hostOps0, Gen.hostOps0_1, Gen.hostOps0_2, List.flatten_cons, List.flatten_nil, List.append_nil,
    List.cons_append, List.nil_append]
  after_results_simp

/-- Rows 32–37 of the node network's first-layer matrix. -/
theorem V_Wn1e (c : Dev nD) :
    (V (F := Ideal) m c main_v8 : S6x64.Idx → EReal) = extractStridedSlice S6x64 ![32, 0] (m ((c : Thread nD τ).loc main_arg8)) slices_S38x64_S6x64_32_0 := by
  dsimp only [Gen.V, Gen.V0]
  simp only [Gen.hostOps0, Gen.hostOps0_1, Gen.hostOps0_2, List.flatten_cons, List.flatten_nil, List.append_nil,
    List.cons_append, List.nil_append]
  after_results_simp

/-- The node network's first bias as a one-row matrix. -/
theorem V_bn1 (c : Dev nD) :
    (V (F := Ideal) m c main_v9 : S1x64.Idx → EReal) = shapeCast S1x64 (m ((c : Thread nD τ).loc main_arg9)) shapeCasts_S64_S1x64 := by
  dsimp only [Gen.V, Gen.V0]
  simp only [Gen.hostOps0, Gen.hostOps0_1, Gen.hostOps0_2, List.flatten_cons, List.flatten_nil, List.append_nil,
    List.cons_append, List.nil_append]
  after_results_simp
  rfl

/-- The node network's second bias as a one-row matrix. -/
theorem V_bn2 (c : Dev nD) :
    (V (F := Ideal) m c main_v10 : S1x32.Idx → EReal) = shapeCast S1x32 (m ((c : Thread nD τ).loc main_arg11)) shapeCasts_S32_S1x32 := by
  dsimp only [Gen.V, Gen.V0]
  simp only [Gen.hostOps0, Gen.hostOps0_1, Gen.hostOps0_2, List.flatten_cons, List.flatten_nil, List.append_nil,
    List.cons_append, List.nil_append]
  after_results_simp
  rfl

end Cert.KernelIdeal.HostValue

end
-- ==== Proof.Spec.lean ====
/-
  The arithmetic both programs perform on one edge, as functions of that edge's rows.

  An edge carries the feature row `d` of its destination node, the row `s` of its source node (32 numbers each) and
  its own 6 features `x`.  The edge network is affine-relu-affine:
      hid₁ j = max (Σₖ d k · Wd k j + Σₖ s k · Ws k j + Σₖ x k · We k j + b₁ j) 0        (32 units)
      em  j = Σₖ hid₁ k · W₂ k j + b₂ j                                                  (6 outputs)
  and the node network, fed the destination row and the edge output,
      hid₂ j = max (Σₖ d k · Vd k j + Σₖ em k · Ve k j + c j) 0                          (64 units)
      msg j = Σₖ hid₂ k · U k j + u j                                                    (32 outputs).
  One program multiplies the concatenated row (d, s, x) with the whole 70-row weight matrix, the other multiplies
  the three pieces with the three row blocks of that matrix and adds the products: a sum over 70 terms against
  the sum of the sums over its first 32, next 32 and last 6 terms.  Regrouping a finite sum needs only that
  addition of extended reals is commutative and associative, so no finiteness is used.
-/
import Idealize.ShloMosaic.PureOps.Ideal
import Idealize.ShloMosaic.Lib.ValueIdx
import Mathlib.Algebra.BigOperators.Fin

noncomputable section

open scoped BigOperators

namespace Cert.EdgeNet

open Idealize.ShloMosaic Idealize.ShloMosaic.ValueIdx

/-- The value of the float word `0x00000000`, the floor of both relus. -/
abbrev floor0 : EReal := Ideal.ofBits .f32 0x00000000#32

/-- One hidden unit of the edge network. -/
def hid1 (d s : Fin 32 → EReal) (x : Fin 6 → EReal) (Wd Ws : Fin 32 → Fin 32 → EReal) (We : Fin 6 → Fin 32 → EReal)
    (b1 : Fin 32 → EReal) (j : Fin 32) : EReal :=
  max ((((∑ k : Fin 32, d k * Wd k j) + (∑ k : Fin 32, s k * Ws k j)) + (∑ k : Fin 6, x k * We k j)) + b1 j) floor0

/-- One output of the edge network. -/
def emRow (d s : Fin 32 → EReal) (x : Fin 6 → EReal) (Wd Ws : Fin 32 → Fin 32 → EReal) (We : Fin 6 → Fin 32 → EReal)
    (b1 : Fin 32 → EReal) (W2 : Fin 32 → Fin 6 → EReal) (b2 : Fin 6 → EReal) (j : Fin 6) : EReal :=
  (∑ k : Fin 32, hid1 d s x Wd Ws We b1 k * W2 k j) + b2 j

/-- One hidden unit of the node network, fed the destination row and an edge output `e`. -/
def hid2 (d : Fin 32 → EReal) (e : Fin 6 → EReal) (Vd : Fin 32 → Fin 64 → EReal) (Ve : Fin 6 → Fin 64 → EReal)
    (c : Fin 64 → EReal) (j : Fin 64) : EReal :=
  max (((∑ k : Fin 32, d k * Vd k j) + (∑ k : Fin 6, e k * Ve k j)) + c j) floor0

/-- One output of the node network. -/
def msgRow (d : Fin 32 → EReal) (e : Fin 6 → EReal) (Vd : Fin 32 → Fin 64 → EReal) (Ve : Fin 6 → Fin 64 → EReal)
    (c : Fin 64 → EReal) (U : Fin 64 → Fin 32 → EReal) (u : Fin 32 → EReal) (j : Fin 32) : EReal :=
  (∑ k : Fin 64, hid2 d e Vd Ve c k * U k j) + u j

/-- A sum over 70 terms is the sum over its first 32, its next 32 and its last 6. -/
theorem sum_70 (f : Fin 70 → EReal) :
    ∑ k : Fin 70, f k
      = ((∑ k : Fin 32, f ⟨k.val, by omega⟩) + (∑ k : Fin 32, f ⟨32 + k.val, by omega⟩)) + (∑ k : Fin 6, f ⟨64 + k.val, by omega⟩) := by
  have h1 := Fin.sum_univ_add (M := EReal) (a := 64) (b := 6) f
  have h2 := Fin.sum_univ_add (M := EReal) (a := 32) (b := 32) (fun i : Fin 64 => f (Fin.castAdd 6 i))
  rw [h1, h2]
  rfl

/-- A sum over 38 terms is the sum over its first 32 and its last 6. -/
theorem sum_38 (f : Fin 38 → EReal) :
    ∑ k : Fin 38, f k = (∑ k : Fin 32, f ⟨k.val, by omega⟩) + (∑ k : Fin 6, f ⟨32 + k.val, by omega⟩) := by
  have h1 := Fin.sum_univ_add (M := EReal) (a := 32) (b := 6) f
  rw [h1]
  rfl

end Cert.EdgeNet

end
-- ==== Proof.KPayEm.lean ====
/-
  The kernel body's first stored value, read at one entry of a 4000-edge block: row p, column q of the block is the
  edge network of row p of the three input blocks.  Each of the four matrix products into a zero accumulator is the
  plain sum over the contracted axis; the format changes are the identity on extended reals; the bias row is
  repeated down the block.
-/
import proofs.«402939_j77352361001089_1_alg».proof.Proof.Gen.KernelIdeal.Skeleton
import proofs.«402939_j77352361001089_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.EdgeNet

/-- The left operand's index in a 4000-by-32 block times a 32-by-32 block keeps the output's row on its first axis … -/
theorem lhs_em_32x32_0 (i : S4000x32.Idx) (q : dot_S4000x32_S32x32_S4000x32_1_0_0_1_n_n.contr.Idx) :
    (dot_S4000x32_S32x32_S4000x32_1_0_0_1_n_n.lhsIdx i q 0).val = (i 0).val := by
  unfold DotDims.lhsIdx
  rw [dif_neg (show ¬(0 : Fin S4000x32.rank) ∈ dot_S4000x32_S32x32_S4000x32_1_0_0_1_n_n.lhsBatch by decide), dif_pos (show (0 : Fin S4000x32.rank) ∈ dot_S4000x32_S32x32_S4000x32_1_0_0_1_n_n.lhsNonContracting by decide)]
  rfl
/-- … and has the contracted coordinate on its second. -/
theorem lhs_em_32x32_1 (i : S4000x32.Idx) (q : dot_S4000x32_S32x32_S4000x32_1_0_0_1_n_n.contr.Idx) :
    (dot_S4000x32_S32x32_S4000x32_1_0_0_1_n_n.lhsIdx i q 1).val = (q ⟨0, by decide⟩).val :=
  dot_S4000x32_S32x32_S4000x32_1_0_0_1_n_n.lhsIdx_val_of_single rfl i q
/-- The right operand's index has the contracted coordinate on its first axis … -/
theorem rhs_em_32x32_0 (i : S4000x32.Idx) (q : dot_S4000x32_S32x32_S4000x32_1_0_0_1_n_n.contr.Idx) :
    (dot_S4000x32_S32x32_S4000x32_1_0_0_1_n_n.rhsIdx i q 0).val = (q ⟨0, by decide⟩).val :=
  dot_S4000x32_S32x32_S4000x32_1_0_0_1_n_n.rhsIdx_val_of_single rfl i q
/-- … and keeps the output's column on its second. -/
theorem rhs_em_32x32_1 (i : S4000x32.Idx) (q : dot_S4000x32_S32x32_S4000x32_1_0_0_1_n_n.contr.Idx) :
    (dot_S4000x32_S32x32_S4000x32_1_0_0_1_n_n.rhsIdx i q 1).val = (i 1).val := by
  unfold DotDims.rhsIdx
  rw [dif_neg (show ¬(1 : Fin S32x32.rank) ∈ dot_S4000x32_S32x32_S4000x32_1_0_0_1_n_n.rhsBatch by decide), dif_pos (show (1 : Fin S32x32.rank) ∈ dot_S4000x32_S32x32_S4000x32_1_0_0_1_n_n.rhsNonContracting by decide)]
  rfl

/-- A 4000-by-32 block times a 32-by-32 block into the zero block: entry (p, j) is the sum over the 32 contracted coordinates. -/
theorem matmul_em_32x32 (l : FVec Ideal S4000x32 .bf16) (r : FVec Ideal S32x32 .bf16) (p : Fin 4000) (j : Fin 32) :
    matmul dot_S4000x32_S32x32_S4000x32_1_0_0_1_n_n none l r (constant (F := Ideal) S4000x32 .f32 0x00000000#32) (ix2 p j)
      = ∑ k : Fin 32, l (ix2 p k) * r (ix2 k j) := by
  show FloatOps.matmul dot_S4000x32_S32x32_S4000x32_1_0_0_1_n_n none l r (constant (F := Ideal) S4000x32 .f32 0x00000000#32) (ix2 p j) = _
  rw [Ideal.matmul_constant_zero_apply, ← Equiv.sum_comp (ValueIdx.contrEquiv1 dot_S4000x32_S32x32_S4000x32_1_0_0_1_n_n 32 rfl rfl).symm]
  refine Finset.sum_congr rfl fun k _ => ?_
  have hk := ValueIdx.contrEquiv1_symm_val dot_S4000x32_S32x32_S4000x32_1_0_0_1_n_n 32 rfl rfl k
  have el : dot_S4000x32_S32x32_S4000x32_1_0_0_1_n_n.lhsIdx (ix2 p j) ((ValueIdx.contrEquiv1 dot_S4000x32_S32x32_S4000x32_1_0_0_1_n_n 32 rfl rfl).symm k) = ix2 p k := funext fun a => Fin.ext (by
    match a with
    | ⟨0, _⟩ => exact lhs_em_32x32_0 _ _
    | ⟨1, _⟩ => exact (lhs_em_32x32_1 _ _).trans hk)
  have er : dot_S4000x32_S32x32_S4000x32_1_0_0_1_n_n.rhsIdx (ix2 p j) ((ValueIdx.contrEquiv1 dot_S4000x32_S32x32_S4000x32_1_0_0_1_n_n 32 rfl rfl).symm k) = ix2 k j := funext fun a => Fin.ext (by
    match a with
    | ⟨0, _⟩ => exact (rhs_em_32x32_0 _ _).trans hk
    | ⟨1, _⟩ => exact rhs_em_32x32_1 _ _)
  rw [el, er]

/-- The left operand's index in a 4000-by-6 block times a 6-by-32 block keeps the output's row on its first axis … -/
theorem lhs_em_6x32_0 (i : S4000x32.Idx) (q : dot_S4000x6_S6x32_S4000x32_1_0_0_1_n_n.contr.Idx) :
    (dot_S4000x6_S6x32_S4000x32_1_0_0_1_n_n.lhsIdx i q 0).val = (i 0).val := by
  unfold DotDims.lhsIdx
  rw [dif_neg (show ¬(0 : Fin S4000x6.rank) ∈ dot_S4000x6_S6x32_S4000x32_1_0_0_1_n_n.lhsBatch by decide), dif_pos (show (0 : Fin S4000x6.rank) ∈ dot_S4000x6_S6x32_S4000x32_1_0_0_1_n_n.lhsNonContracting by decide)]
  rfl
/-- … and has the contracted coordinate on its second. -/
theorem lhs_em_6x32_1 (i : S4000x32.Idx) (q : dot_S4000x6_S6x32_S4000x32_1_0_0_1_n_n.contr.Idx) :
    (dot_S4000x6_S6x32_S4000x32_1_0_0_1_n_n.lhsIdx i q 1).val = (q ⟨0, by decide⟩).val :=
  dot_S4000x6_S6x32_S4000x32_1_0_0_1_n_n.lhsIdx_val_of_single rfl i q
/-- The right operand's index has the contracted coordinate on its first axis … -/
theorem rhs_em_6x32_0 (i : S4000x32.Idx) (q : dot_S4000x6_S6x32_S4000x32_1_0_0_1_n_n.contr.Idx) :
    (dot_S4000x6_S6x32_S4000x32_1_0_0_1_n_n.rhsIdx i q 0).val = (q ⟨0, by decide⟩).val :=
  dot_S4000x6_S6x32_S4000x32_1_0_0_1_n_n.rhsIdx_val_of_single rfl i q
/-- … and keeps the output's column on its second. -/
theorem rhs_em_6x32_1 (i : S4000x32.Idx) (q : dot_S4000x6_S6x32_S4000x32_1_0_0_1_n_n.contr.Idx) :
    (dot_S4000x6_S6x32_S4000x32_1_0_0_1_n_n.rhsIdx i q 1).val = (i 1).val := by
  unfold DotDims.rhsIdx
  rw [dif_neg (show ¬(1 : Fin S6x32.rank) ∈ dot_S4000x6_S6x32_S4000x32_1_0_0_1_n_n.rhsBatch by decide), dif_pos (show (1 : Fin S6x32.rank) ∈ dot_S4000x6_S6x32_S4000x32_1_0_0_1_n_n.rhsNonContracting by decide)]
  rfl

/-- A 4000-by-6 block times a 6-by-32 block into the zero block: entry (p, j) is the sum over the 6 contracted coordinates. -/
theorem matmul_em_6x32 (l : FVec Ideal S4000x6 .bf16) (r : FVec Ideal S6x32 .bf16) (p : Fin 4000) (j : Fin 32) :
    matmul dot_S4000x6_S6x32_S4000x32_1_0_0_1_n_n none l r (constant (F := Ideal) S4000x32 .f32 0x00000000#32) (ix2 p j)
      = ∑ k : Fin 6, l (ix2 p k) * r (ix2 k j) := by
  show FloatOps.matmul dot_S4000x6_S6x32_S4000x32_1_0_0_1_n_n none l r (constant (F := Ideal) S4000x32 .f32 0x00000000#32) (ix2 p j) = _
  rw [Ideal.matmul_constant_zero_apply, ← Equiv.sum_comp (ValueIdx.contrEquiv1 dot_S4000x6_S6x32_S4000x32_1_0_0_1_n_n 6 rfl rfl).symm]
  refine Finset.sum_congr rfl fun k _ => ?_
  have hk := ValueIdx.contrEquiv1_symm_val dot_S4000x6_S6x32_S4000x32_1_0_0_1_n_n 6 rfl rfl k
  have el : dot_S4000x6_S6x32_S4000x32_1_0_0_1_n_n.lhsIdx (ix2 p j) ((ValueIdx.contrEquiv1 dot_S4000x6_S6x32_S4000x32_1_0_0_1_n_n 6 rfl rfl).symm k) = ix2 p k := funext fun a => Fin.ext (by
    match a with
    | ⟨0, _⟩ => exact lhs_em_6x32_0 _ _
    | ⟨1, _⟩ => exact (lhs_em_6x32_1 _ _).trans hk)
  have er : dot_S4000x6_S6x32_S4000x32_1_0_0_1_n_n.rhsIdx (ix2 p j) ((ValueIdx.contrEquiv1 dot_S4000x6_S6x32_S4000x32_1_0_0_1_n_n 6 rfl rfl).symm k) = ix2 k j := funext fun a => Fin.ext (by
    match a with
    | ⟨0, _⟩ => exact (rhs_em_6x32_0 _ _).trans hk
    | ⟨1, _⟩ => exact rhs_em_6x32_1 _ _)
  rw [el, er]

/-- The left operand's index in a 4000-by-32 block times a 32-by-6 block keeps the output's row on its first axis … -/
theorem lhs_em_32x6_0 (i : S4000x6.Idx) (q : dot_S4000x32_S32x6_S4000x6_1_0_0_1_n_n.contr.Idx) :
    (dot_S4000x32_S32x6_S4000x6_1_0_0_1_n_n.lhsIdx i q 0).val = (i 0).val := by
  unfold DotDims.lhsIdx
  rw [dif_neg (show ¬(0 : Fin S4000x32.rank) ∈ dot_S4000x32_S32x6_S4000x6_1_0_0_1_n_n.lhsBatch by decide), dif_pos (show (0 : Fin S4000x32.rank) ∈ dot_S4000x32_S32x6_S4000x6_1_0_0_1_n_n.lhsNonContracting by decide)]
  rfl
/-- … and has the contracted coordinate on its second. -/
theorem lhs_em_32x6_1 (i : S4000x6.Idx) (q : dot_S4000x32_S32x6_S4000x6_1_0_0_1_n_n.contr.Idx) :
    (dot_S4000x32_S32x6_S4000x6_1_0_0_1_n_n.lhsIdx i q 1).val = (q ⟨0, by decide⟩).val :=
  dot_S4000x32_S32x6_S4000x6_1_0_0_1_n_n.lhsIdx_val_of_single rfl i q
/-- The right operand's index has the contracted coordinate on its first axis … -/
theorem rhs_em_32x6_0 (i : S4000x6.Idx) (q : dot_S4000x32_S32x6_S4000x6_1_0_0_1_n_n.contr.Idx) :
    (dot_S4000x32_S32x6_S4000x6_1_0_0_1_n_n.rhsIdx i q 0).val = (q ⟨0, by decide⟩).val :=
  dot_S4000x32_S32x6_S4000x6_1_0_0_1_n_n.rhsIdx_val_of_single rfl i q
/-- … and keeps the output's column on its second. -/
theorem rhs_em_32x6_1 (i : S4000x6.Idx) (q : dot_S4000x32_S32x6_S4000x6_1_0_0_1_n_n.contr.Idx) :
    (dot_S4000x32_S32x6_S4000x6_1_0_0_1_n_n.rhsIdx i q 1).val = (i 1).val := by
  unfold DotDims.rhsIdx
  rw [dif_neg (show ¬(1 : Fin S32x6.rank) ∈ dot_S4000x32_S32x6_S4000x6_1_0_0_1_n_n.rhsBatch by decide), dif_pos (show (1 : Fin S32x6.rank) ∈ dot_S4000x32_S32x6_S4000x6_1_0_0_1_n_n.rhsNonContracting by decide)]
  rfl

/-- A 4000-by-32 block times a 32-by-6 block into the zero block: entry (p, j) is the sum over the 32 contracted coordinates. -/
theorem matmul_em_32x6 (l : FVec Ideal S4000x32 .bf16) (r : FVec Ideal S32x6 .bf16) (p : Fin 4000) (j : Fin 6) :
    matmul dot_S4000x32_S32x6_S4000x6_1_0_0_1_n_n none l r (constant (F := Ideal) S4000x6 .f32 0x00000000#32) (ix2 p j)
      = ∑ k : Fin 32, l (ix2 p k) * r (ix2 k j) := by
  show FloatOps.matmul dot_S4000x32_S32x6_S4000x6_1_0_0_1_n_n none l r (constant (F := Ideal) S4000x6 .f32 0x00000000#32) (ix2 p j) = _
  rw [Ideal.matmul_constant_zero_apply, ← Equiv.sum_comp (ValueIdx.contrEquiv1 dot_S4000x32_S32x6_S4000x6_1_0_0_1_n_n 32 rfl rfl).symm]
  refine Finset.sum_congr rfl fun k _ => ?_
  have hk := ValueIdx.contrEquiv1_symm_val dot_S4000x32_S32x6_S4000x6_1_0_0_1_n_n 32 rfl rfl k
  have el : dot_S4000x32_S32x6_S4000x6_1_0_0_1_n_n.lhsIdx (ix2 p j) ((ValueIdx.contrEquiv1 dot_S4000x32_S32x6_S4000x6_1_0_0_1_n_n 32 rfl rfl).symm k) = ix2 p k := funext fun a => Fin.ext (by
    match a with
    | ⟨0, _⟩ => exact lhs_em_32x6_0 _ _
    | ⟨1, _⟩ => exact (lhs_em_32x6_1 _ _).trans hk)
  have er : dot_S4000x32_S32x6_S4000x6_1_0_0_1_n_n.rhsIdx (ix2 p j) ((ValueIdx.contrEquiv1 dot_S4000x32_S32x6_S4000x6_1_0_0_1_n_n 32 rfl rfl).symm k) = ix2 k j := funext fun a => Fin.ext (by
    match a with
    | ⟨0, _⟩ => exact (rhs_em_32x6_0 _ _).trans hk
    | ⟨1, _⟩ => exact rhs_em_32x6_1 _ _)
  rw [el, er]

/-- Entry (p, q) of the edge output block is the edge network of row p of the destination, source and edge-feature
    blocks, with the three weight blocks, the bias rows and the second layer as loaded. -/
theorem pay_em (x0 x1 : Vec Ideal S4000x32 .f32) (x2 : Vec Ideal S4000x6 .f32) (x3 x4 : Vec Ideal S32x32 .f32)
    (x5 : Vec Ideal S6x32 .f32) (x6 : Vec Ideal S1x32 .f32) (x7 : Vec Ideal S32x6 .f32) (x8 : Vec Ideal S1x6 .f32)
    (p : Fin 4000) (q : Fin 6) :
    k0_pay3 (F := Ideal) x0 x1 x2 x3 x4 x5 x6 x7 x8 (ix2 p q)
      = emRow (fun k => x0 (ix2 p k)) (fun k => x1 (ix2 p k)) (fun k => x2 (ix2 p k))
          (fun k j => x3 (ix2 k j)) (fun k j => x4 (ix2 k j)) (fun k j => x5 (ix2 k j)) (fun j => x6 (ix2 (0 : Fin 1) j))
          (fun k j => x7 (ix2 k j)) (fun j => x8 (ix2 (0 : Fin 1) j)) q := by
  -- the payload: a casting to the same shape is the identity
  unfold k0_pay3 k0_pay2
  simp only [shapeCast_self]
  -- the second layer at (p, q): the sum over the 32 hidden units plus the second bias row at q
  rw [addf_apply, matmul_em_32x6, broadcastTo_1b_ab_apply]
  unfold emRow
  refine congrArg (· + x8 (ix2 (0 : Fin 1) q)) (Finset.sum_congr rfl fun k _ => ?_)
  -- hidden unit k of row p: the three products added, the first bias row at k added, the larger of that and the floor
  rw [truncf_apply, truncf_apply, maximumf_apply, addf_apply, addf_apply, addf_apply, matmul_em_32x32, matmul_em_32x32, matmul_em_6x32,
    broadcastTo_1b_ab_apply, broadcast_apply]
  unfold hid1
  simp only [truncf_apply]
  rfl

end Cert.KernelIdeal.BodyValue

end
-- ==== Proof.KPayMsg.lean ====
/-
  The kernel body's second stored value, read at one entry of a 4000-edge block: row p, column q of the block is the
  node network of row p of the destination block and row p of the edge output block.  Each of the three matrix
  products into a zero accumulator is the plain sum over the contracted axis; the format changes are the identity
  on extended reals; the bias row is repeated down the block.
-/
import proofs.«402939_j77352361001089_1_alg».proof.Proof.Gen.KernelIdeal.Skeleton
import proofs.«402939_j77352361001089_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.EdgeNet

/-- Left operand's row coordinate of the 4000×32 by 32×64 product's contraction. -/
theorem lhs_msg_4000x32_32x64_0 (i : S4000x64.Idx) (q : dot_S4000x32_S32x64_S4000x64_1_0_0_1_n_n.contr.Idx) :
    (dot_S4000x32_S32x64_S4000x64_1_0_0_1_n_n.lhsIdx i q 0).val = (i 0).val := by
  unfold DotDims.lhsIdx
  rw [dif_neg (show ¬(0 : Fin S4000x32.rank) ∈ dot_S4000x32_S32x64_S4000x64_1_0_0_1_n_n.lhsBatch by decide), dif_pos (show (0 : Fin S4000x32.rank) ∈ dot_S4000x32_S32x64_S4000x64_1_0_0_1_n_n.lhsNonContracting by decide)]
  rfl
/-- Left operand's column coordinate is the contraction coordinate. -/
theorem lhs_msg_4000x32_32x64_1 (i : S4000x64.Idx) (q : dot_S4000x32_S32x64_S4000x64_1_0_0_1_n_n.contr.Idx) :
    (dot_S4000x32_S32x64_S4000x64_1_0_0_1_n_n.lhsIdx i q 1).val = (q ⟨0, by decide⟩).val :=
  dot_S4000x32_S32x64_S4000x64_1_0_0_1_n_n.lhsIdx_val_of_single rfl i q
/-- Right operand's row coordinate is the contraction coordinate. -/
theorem rhs_msg_4000x32_32x64_0 (i : S4000x64.Idx) (q : dot_S4000x32_S32x64_S4000x64_1_0_0_1_n_n.contr.Idx) :
    (dot_S4000x32_S32x64_S4000x64_1_0_0_1_n_n.rhsIdx i q 0).val = (q ⟨0, by decide⟩).val :=
  dot_S4000x32_S32x64_S4000x64_1_0_0_1_n_n.rhsIdx_val_of_single rfl i q
/-- Right operand's column coordinate is the output's. -/
theorem rhs_msg_4000x32_32x64_1 (i : S4000x64.Idx) (q : dot_S4000x32_S32x64_S4000x64_1_0_0_1_n_n.contr.Idx) :
    (dot_S4000x32_S32x64_S4000x64_1_0_0_1_n_n.rhsIdx i q 1).val = (i 1).val := by
  unfold DotDims.rhsIdx
  rw [dif_neg (show ¬(1 : Fin S32x64.rank) ∈ dot_S4000x32_S32x64_S4000x64_1_0_0_1_n_n.rhsBatch by decide), dif_pos (show (1 : Fin S32x64.rank) ∈ dot_S4000x32_S32x64_S4000x64_1_0_0_1_n_n.rhsNonContracting by decide)]
  rfl
/-- The 4000×32 by 32×64 product into a zero accumulator, at entry (p, j): the sum over the 32 contracted coordinates. -/
theorem matmul_msg_4000x32_32x64 (l : FVec Ideal S4000x32 .bf16) (r : FVec Ideal S32x64 .bf16) (p : Fin 4000) (j : Fin 64) :
    matmul (F := Ideal) dot_S4000x32_S32x64_S4000x64_1_0_0_1_n_n none l r (constant (F := Ideal) S4000x64 .f32 0x00000000#32) (ix2 p j)
      = ∑ k : Fin 32, l (ix2 p k) * r (ix2 k j) := by
  simp only [matmul]
  rw [Ideal.matmul_constant_zero_apply, ← Equiv.sum_comp (ValueIdx.contrEquiv1 dot_S4000x32_S32x64_S4000x64_1_0_0_1_n_n 32 rfl rfl).symm]
  refine Finset.sum_congr rfl fun k _ => ?_
  have hk := ValueIdx.contrEquiv1_symm_val dot_S4000x32_S32x64_S4000x64_1_0_0_1_n_n 32 rfl rfl k
  have el : dot_S4000x32_S32x64_S4000x64_1_0_0_1_n_n.lhsIdx (ix2 p j) ((ValueIdx.contrEquiv1 dot_S4000x32_S32x64_S4000x64_1_0_0_1_n_n 32 rfl rfl).symm k) = ix2 p k := funext fun a => Fin.ext (by
    match a with
    | ⟨0, _⟩ => exact lhs_msg_4000x32_32x64_0 _ _
    | ⟨1, _⟩ => exact (lhs_msg_4000x32_32x64_1 _ _).trans hk)
  have er : dot_S4000x32_S32x64_S4000x64_1_0_0_1_n_n.rhsIdx (ix2 p j) ((ValueIdx.contrEquiv1 dot_S4000x32_S32x64_S4000x64_1_0_0_1_n_n 32 rfl rfl).symm k) = ix2 k j := funext fun a => Fin.ext (by
    match a with
    | ⟨0, _⟩ => exact (rhs_msg_4000x32_32x64_0 _ _).trans hk
    | ⟨1, _⟩ => exact rhs_msg_4000x32_32x64_1 _ _)
  rw [el, er]

/-- Left operand's row coordinate of the 4000×6 by 6×64 product's contraction. -/
theorem lhs_msg_4000x6_6x64_0 (i : S4000x64.Idx) (q : dot_S4000x6_S6x64_S4000x64_1_0_0_1_n_n.contr.Idx) :
    (dot_S4000x6_S6x64_S4000x64_1_0_0_1_n_n.lhsIdx i q 0).val = (i 0).val := by
  unfold DotDims.lhsIdx
  rw [dif_neg (show ¬(0 : Fin S4000x6.rank) ∈ dot_S4000x6_S6x64_S4000x64_1_0_0_1_n_n.lhsBatch by decide), dif_pos (show (0 : Fin S4000x6.rank) ∈ dot_S4000x6_S6x64_S4000x64_1_0_0_1_n_n.lhsNonContracting by decide)]
  rfl
/-- Left operand's column coordinate is the contraction coordinate. -/
theorem lhs_msg_4000x6_6x64_1 (i : S4000x64.Idx) (q : dot_S4000x6_S6x64_S4000x64_1_0_0_1_n_n.contr.Idx) :
    (dot_S4000x6_S6x64_S4000x64_1_0_0_1_n_n.lhsIdx i q 1).val = (q ⟨0, by decide⟩).val :=
  dot_S4000x6_S6x64_S4000x64_1_0_0_1_n_n.lhsIdx_val_of_single rfl i q
/-- Right operand's row coordinate is the contraction coordinate. -/
theorem rhs_msg_4000x6_6x64_0 (i : S4000x64.Idx) (q : dot_S4000x6_S6x64_S4000x64_1_0_0_1_n_n.contr.Idx) :
    (dot_S4000x6_S6x64_S4000x64_1_0_0_1_n_n.rhsIdx i q 0).val = (q ⟨0, by decide⟩).val :=
  dot_S4000x6_S6x64_S4000x64_1_0_0_1_n_n.rhsIdx_val_of_single rfl i q
/-- Right operand's column coordinate is the output's. -/
theorem rhs_msg_4000x6_6x64_1 (i : S4000x64.Idx) (q : dot_S4000x6_S6x64_S4000x64_1_0_0_1_n_n.contr.Idx) :
    (dot_S4000x6_S6x64_S4000x64_1_0_0_1_n_n.rhsIdx i q 1).val = (i 1).val := by
  unfold DotDims.rhsIdx
  rw [dif_neg (show ¬(1 : Fin S6x64.rank) ∈ dot_S4000x6_S6x64_S4000x64_1_0_0_1_n_n.rhsBatch by decide), dif_pos (show (1 : Fin S6x64.rank) ∈ dot_S4000x6_S6x64_S4000x64_1_0_0_1_n_n.rhsNonContracting by decide)]
  rfl
/-- The 4000×6 by 6×64 product into a zero accumulator, at entry (p, j): the sum over the 6 contracted coordinates. -/
theorem matmul_msg_4000x6_6x64 (l : FVec Ideal S4000x6 .bf16) (r : FVec Ideal S6x64 .bf16) (p : Fin 4000) (j : Fin 64) :
    matmul (F := Ideal) dot_S4000x6_S6x64_S4000x64_1_0_0_1_n_n none l r (constant (F := Ideal) S4000x64 .f32 0x00000000#32) (ix2 p j)
      = ∑ k : Fin 6, l (ix2 p k) * r (ix2 k j) := by
  simp only [matmul]
  rw [Ideal.matmul_constant_zero_apply, ← Equiv.sum_comp (ValueIdx.contrEquiv1 dot_S4000x6_S6x64_S4000x64_1_0_0_1_n_n 6 rfl rfl).symm]
  refine Finset.sum_congr rfl fun k _ => ?_
  have hk := ValueIdx.contrEquiv1_symm_val dot_S4000x6_S6x64_S4000x64_1_0_0_1_n_n 6 rfl rfl k
  have el : dot_S4000x6_S6x64_S4000x64_1_0_0_1_n_n.lhsIdx (ix2 p j) ((ValueIdx.contrEquiv1 dot_S4000x6_S6x64_S4000x64_1_0_0_1_n_n 6 rfl rfl).symm k) = ix2 p k := funext fun a => Fin.ext (by
    match a with
    | ⟨0, _⟩ => exact lhs_msg_4000x6_6x64_0 _ _
    | ⟨1, _⟩ => exact (lhs_msg_4000x6_6x64_1 _ _).trans hk)
  have er : dot_S4000x6_S6x64_S4000x64_1_0_0_1_n_n.rhsIdx (ix2 p j) ((ValueIdx.contrEquiv1 dot_S4000x6_S6x64_S4000x64_1_0_0_1_n_n 6 rfl rfl).symm k) = ix2 k j := funext fun a => Fin.ext (by
    match a with
    | ⟨0, _⟩ => exact (rhs_msg_4000x6_6x64_0 _ _).trans hk
    | ⟨1, _⟩ => exact rhs_msg_4000x6_6x64_1 _ _)
  rw [el, er]

/-- Left operand's row coordinate of the 4000×64 by 64×32 product's contraction. -/
theorem lhs_msg_4000x64_64x32_0 (i : S4000x32.Idx) (q : dot_S4000x64_S64x32_S4000x32_1_0_0_1_n_n.contr.Idx) :
    (dot_S4000x64_S64x32_S4000x32_1_0_0_1_n_n.lhsIdx i q 0).val = (i 0).val := by
  unfold DotDims.lhsIdx
  rw [dif_neg (show ¬(0 : Fin S4000x64.rank) ∈ dot_S4000x64_S64x32_S4000x32_1_0_0_1_n_n.lhsBatch by decide), dif_pos (show (0 : Fin S4000x64.rank) ∈ dot_S4000x64_S64x32_S4000x32_1_0_0_1_n_n.lhsNonContracting by decide)]
  rfl
/-- Left operand's column coordinate is the contraction coordinate. -/
theorem lhs_msg_4000x64_64x32_1 (i : S4000x32.Idx) (q : dot_S4000x64_S64x32_S4000x32_1_0_0_1_n_n.contr.Idx) :
    (dot_S4000x64_S64x32_S4000x32_1_0_0_1_n_n.lhsIdx i q 1).val = (q ⟨0, by decide⟩).val :=
  dot_S4000x64_S64x32_S4000x32_1_0_0_1_n_n.lhsIdx_val_of_single rfl i q
/-- Right operand's row coordinate is the contraction coordinate. -/
theorem rhs_msg_4000x64_64x32_0 (i : S4000x32.Idx) (q : dot_S4000x64_S64x32_S4000x32_1_0_0_1_n_n.contr.Idx) :
    (dot_S4000x64_S64x32_S4000x32_1_0_0_1_n_n.rhsIdx i q 0).val = (q ⟨0, by decide⟩).val :=
  dot_S4000x64_S64x32_S4000x32_1_0_0_1_n_n.rhsIdx_val_of_single rfl i q
/-- Right operand's column coordinate is the output's. -/
theorem rhs_msg_4000x64_64x32_1 (i : S4000x32.Idx) (q : dot_S4000x64_S64x32_S4000x32_1_0_0_1_n_n.contr.Idx) :
    (dot_S4000x64_S64x32_S4000x32_1_0_0_1_n_n.rhsIdx i q 1).val = (i 1).val := by
  unfold DotDims.rhsIdx
  rw [dif_neg (show ¬(1 : Fin S64x32.rank) ∈ dot_S4000x64_S64x32_S4000x32_1_0_0_1_n_n.rhsBatch by decide), dif_pos (show (1 : Fin S64x32.rank) ∈ dot_S4000x64_S64x32_S4000x32_1_0_0_1_n_n.rhsNonContracting by decide)]
  rfl
/-- The 4000×64 by 64×32 product into a zero accumulator, at entry (p, j): the sum over the 64 contracted coordinates. -/
theorem matmul_msg_4000x64_64x32 (l : FVec Ideal S4000x64 .bf16) (r : FVec Ideal S64x32 .bf16) (p : Fin 4000) (j : Fin 32) :
    matmul (F := Ideal) dot_S4000x64_S64x32_S4000x32_1_0_0_1_n_n none l r (constant (F := Ideal) S4000x32 .f32 0x00000000#32) (ix2 p j)
      = ∑ k : Fin 64, l (ix2 p k) * r (ix2 k j) := by
  simp only [matmul]
  rw [Ideal.matmul_constant_zero_apply, ← Equiv.sum_comp (ValueIdx.contrEquiv1 dot_S4000x64_S64x32_S4000x32_1_0_0_1_n_n 64 rfl rfl).symm]
  refine Finset.sum_congr rfl fun k _ => ?_
  have hk := ValueIdx.contrEquiv1_symm_val dot_S4000x64_S64x32_S4000x32_1_0_0_1_n_n 64 rfl rfl k
  have el : dot_S4000x64_S64x32_S4000x32_1_0_0_1_n_n.lhsIdx (ix2 p j) ((ValueIdx.contrEquiv1 dot_S4000x64_S64x32_S4000x32_1_0_0_1_n_n 64 rfl rfl).symm k) = ix2 p k := funext fun a => Fin.ext (by
    match a with
    | ⟨0, _⟩ => exact lhs_msg_4000x64_64x32_0 _ _
    | ⟨1, _⟩ => exact (lhs_msg_4000x64_64x32_1 _ _).trans hk)
  have er : dot_S4000x64_S64x32_S4000x32_1_0_0_1_n_n.rhsIdx (ix2 p j) ((ValueIdx.contrEquiv1 dot_S4000x64_S64x32_S4000x32_1_0_0_1_n_n 64 rfl rfl).symm k) = ix2 k j := funext fun a => Fin.ext (by
    match a with
    | ⟨0, _⟩ => exact (rhs_msg_4000x64_64x32_0 _ _).trans hk
    | ⟨1, _⟩ => exact rhs_msg_4000x64_64x32_1 _ _)
  rw [el, er]

/-- Entry (p, q) of the message block is the node network of row p of the destination block and row p of an edge
    output block `E`, with the two weight blocks, the bias rows and the second layer as loaded. -/
theorem pay_msg (x0 : Vec Ideal S4000x32 .f32) (E : FVec Ideal S4000x6 .f32) (x9 : Vec Ideal S32x64 .f32)
    (x10 : Vec Ideal S6x64 .f32) (x11 : Vec Ideal S1x64 .f32) (x12 : Vec Ideal S64x32 .f32) (x13 : Vec Ideal S1x32 .f32)
    (p : Fin 4000) (q : Fin 32) :
    k0_pay1 (F := Ideal) (k0_pay2 (F := Ideal) x0) E x9 x10 x11 x12 x13 (ix2 p q)
      = msgRow (fun k => x0 (ix2 p k)) (fun k => E (ix2 p k))
          (fun k j => x9 (ix2 k j)) (fun k j => x10 (ix2 k j)) (fun j => x11 (ix2 (0 : Fin 1) j))
          (fun k j => x12 (ix2 k j)) (fun j => x13 (ix2 (0 : Fin 1) j)) q := by
  unfold k0_pay1 k0_pay2
  -- the same-shape casts are the identity
  simp only [shapeCast_self]
  -- the outer sum of the third product and the second bias row, at (p, q)
  rw [addf_apply, broadcastTo_1b_ab_apply, matmul_msg_4000x64_64x32]
  unfold msgRow
  refine congrArg (· + _) (Finset.sum_congr rfl fun k _ => ?_)
  -- the hidden unit k of row p: the two products added, the first bias row added, the floor at the zero word
  rw [truncf_apply, truncf_apply, maximumf_apply, addf_apply, addf_apply, broadcastTo_1b_ab_apply,
    matmul_msg_4000x32_32x64, matmul_msg_4000x6_6x64, broadcast_apply]
  unfold hid2
  -- what remains are the narrowings of the operands, the identity on extended reals
  rfl

end Cert.KernelIdeal.BodyValue

end
-- ==== Proof.Arrays.lean ====
/-
  The two networks over the whole edge list: entry (e, j) of the edge output is the edge network of edge e's three
  rows, entry (e, j) of the message is the node network of edge e's destination row and edge output.  The weight
  matrix of each first layer is one array whose row blocks feed the pieces of the concatenated input: rows 0–31 the
  destination row, rows 32–63 the source row (edge network) or rows 32–37 the edge output (node network), rows 64–69
  the edge features.
-/
import proofs.«402939_j77352361001089_1_alg».proof.Proof.Spec

noncomputable section

namespace Cert.EdgeNet

open Idealize.ShloMosaic Idealize.ShloMosaic.ValueIdx

/-- The edge network's output `j` at edge `e`, from the gathered destination rows `D`, source rows `S`, the edge
    features `X` and the weights. -/
def emAt (D S : FVec Ideal ⟨2, ![3200000, 32]⟩ .f32) (X : FVec Ideal ⟨2, ![3200000, 6]⟩ .f32)
    (W1 : FVec Ideal ⟨2, ![70, 32]⟩ .f32) (b1 : FVec Ideal ⟨1, ![32]⟩ .f32)
    (W2 : FVec Ideal ⟨2, ![32, 6]⟩ .f32) (b2 : FVec Ideal ⟨1, ![6]⟩ .f32) (e : Fin 3200000) (j : Fin 6) : EReal :=
  emRow (fun k => D (ix2 e k)) (fun k => S (ix2 e k)) (fun k => X (ix2 e k))
    (fun k j => W1 (ix2 (⟨k.val, by omega⟩ : Fin 70) j)) (fun k j => W1 (ix2 (⟨32 + k.val, by omega⟩ : Fin 70) j))
    (fun k j => W1 (ix2 (⟨64 + k.val, by omega⟩ : Fin 70) j)) (fun j => b1 (ix1 j))
    (fun k j => W2 (ix2 k j)) (fun j => b2 (ix1 j)) j

/-- The edge output as an array. -/
def emArr (D S : FVec Ideal ⟨2, ![3200000, 32]⟩ .f32) (X : FVec Ideal ⟨2, ![3200000, 6]⟩ .f32)
    (W1 : FVec Ideal ⟨2, ![70, 32]⟩ .f32) (b1 : FVec Ideal ⟨1, ![32]⟩ .f32)
    (W2 : FVec Ideal ⟨2, ![32, 6]⟩ .f32) (b2 : FVec Ideal ⟨1, ![6]⟩ .f32) : FVec Ideal ⟨2, ![3200000, 6]⟩ .f32 :=
  fun i => emAt D S X W1 b1 W2 b2 ⟨(i 0).val, idx2_lt0 i⟩ ⟨(i 1).val, idx2_lt1 i⟩

theorem emArr_apply (D S : FVec Ideal ⟨2, ![3200000, 32]⟩ .f32) (X : FVec Ideal ⟨2, ![3200000, 6]⟩ .f32)
    (W1 : FVec Ideal ⟨2, ![70, 32]⟩ .f32) (b1 : FVec Ideal ⟨1, ![32]⟩ .f32)
    (W2 : FVec Ideal ⟨2, ![32, 6]⟩ .f32) (b2 : FVec Ideal ⟨1, ![6]⟩ .f32) (e : Fin 3200000) (j : Fin 6) :
    emArr D S X W1 b1 W2 b2 (ix2 e j) = emAt D S X W1 b1 W2 b2 e j := rfl

/-- The node network's output `j` at edge `e`, from the gathered destination rows `D`, an edge output `E` and the
    weights. -/
def msgAt (D : FVec Ideal ⟨2, ![3200000, 32]⟩ .f32) (E : FVec Ideal ⟨2, ![3200000, 6]⟩ .f32)
    (V1 : FVec Ideal ⟨2, ![38, 64]⟩ .f32) (c : FVec Ideal ⟨1, ![64]⟩ .f32)
    (V2 : FVec Ideal ⟨2, ![64, 32]⟩ .f32) (u : FVec Ideal ⟨1, ![32]⟩ .f32) (e : Fin 3200000) (j : Fin 32) : EReal :=
  msgRow (fun k => D (ix2 e k)) (fun k => E (ix2 e k))
    (fun k j => V1 (ix2 (⟨k.val, by omega⟩ : Fin 38) j)) (fun k j => V1 (ix2 (⟨32 + k.val, by omega⟩ : Fin 38) j))
    (fun j => c (ix1 j)) (fun k j => V2 (ix2 k j)) (fun j => u (ix1 j)) j

/-- The message as an array. -/
def msgArr (D : FVec Ideal ⟨2, ![3200000, 32]⟩ .f32) (E : FVec Ideal ⟨2, ![3200000, 6]⟩ .f32)
    (V1 : FVec Ideal ⟨2, ![38, 64]⟩ .f32) (c : FVec Ideal ⟨1, ![64]⟩ .f32)
    (V2 : FVec Ideal ⟨2, ![64, 32]⟩ .f32) (u : FVec Ideal ⟨1, ![32]⟩ .f32) : FVec Ideal ⟨2, ![3200000, 32]⟩ .f32 :=
  fun i => msgAt D E V1 c V2 u ⟨(i 0).val, idx2_lt0 i⟩ ⟨(i 1).val, idx2_lt1 i⟩

theorem msgArr_apply (D : FVec Ideal ⟨2, ![3200000, 32]⟩ .f32) (E : FVec Ideal ⟨2, ![3200000, 6]⟩ .f32)
    (V1 : FVec Ideal ⟨2, ![38, 64]⟩ .f32) (c : FVec Ideal ⟨1, ![64]⟩ .f32)
    (V2 : FVec Ideal ⟨2, ![64, 32]⟩ .f32) (u : FVec Ideal ⟨1, ![32]⟩ .f32) (e : Fin 3200000) (j : Fin 32) :
    msgArr D E V1 c V2 u (ix2 e j) = msgAt D E V1 c V2 u e j := rfl

end Cert.EdgeNet

end
-- ==== Proof.ArraysK.lean ====
/-
  The two networks over the whole edge list with the first-layer weights already cut into row blocks and the biases
  already laid out as one-row matrices: the form in which the pipelined region meets them.  Cutting rows o … o + n − 1
  out of a matrix reads row o + k at row k, and a vector viewed as a one-row matrix reads entry j at (0, j); so this
  form is the same function of the uncut weights and the bias vectors as the plain one.
-/
import proofs.«402939_j77352361001089_1_alg».proof.Proof.Arrays
import Idealize.ShloMosaic.Lib.ValueLayout
import Idealize.ShloMosaic.Lib.Pipeline.Value

noncomputable section

namespace Cert.EdgeNet

open Idealize.ShloMosaic Idealize.ShloMosaic.ValueIdx

/-- The edge output from row blocks: `A3`, `A4`, `A5` meet the destination rows, the source rows and the edge features,
    `A6` and `A8` are the biases as one-row matrices. -/
def emK (A0 A1 : FVec Ideal ⟨2, ![3200000, 32]⟩ .f32) (A2 : FVec Ideal ⟨2, ![3200000, 6]⟩ .f32)
    (A3 A4 : FVec Ideal ⟨2, ![32, 32]⟩ .f32) (A5 : FVec Ideal ⟨2, ![6, 32]⟩ .f32) (A6 : FVec Ideal ⟨2, ![1, 32]⟩ .f32)
    (A7 : FVec Ideal ⟨2, ![32, 6]⟩ .f32) (A8 : FVec Ideal ⟨2, ![1, 6]⟩ .f32) : FVec Ideal ⟨2, ![3200000, 6]⟩ .f32 :=
  fun i => emRow (fun k => A0 (ix2 (⟨(i 0).val, idx2_lt0 i⟩ : Fin 3200000) k))
    (fun k => A1 (ix2 (⟨(i 0).val, idx2_lt0 i⟩ : Fin 3200000) k)) (fun k => A2 (ix2 (⟨(i 0).val, idx2_lt0 i⟩ : Fin 3200000) k))
    (fun k j => A3 (ix2 k j)) (fun k j => A4 (ix2 k j)) (fun k j => A5 (ix2 k j)) (fun j => A6 (ix2 (0 : Fin 1) j))
    (fun k j => A7 (ix2 k j)) (fun j => A8 (ix2 (0 : Fin 1) j)) ⟨(i 1).val, idx2_lt1 i⟩

theorem emK_apply (A0 A1 : FVec Ideal ⟨2, ![3200000, 32]⟩ .f32) (A2 : FVec Ideal ⟨2, ![3200000, 6]⟩ .f32)
    (A3 A4 : FVec Ideal ⟨2, ![32, 32]⟩ .f32) (A5 : FVec Ideal ⟨2, ![6, 32]⟩ .f32) (A6 : FVec Ideal ⟨2, ![1, 32]⟩ .f32)
    (A7 : FVec Ideal ⟨2, ![32, 6]⟩ .f32) (A8 : FVec Ideal ⟨2, ![1, 6]⟩ .f32) (e : Fin 3200000) (j : Fin 6) :
    emK A0 A1 A2 A3 A4 A5 A6 A7 A8 (ix2 e j)
      = emRow (fun k => A0 (ix2 e k)) (fun k => A1 (ix2 e k)) (fun k => A2 (ix2 e k))
          (fun k j => A3 (ix2 k j)) (fun k j => A4 (ix2 k j)) (fun k j => A5 (ix2 k j)) (fun j => A6 (ix2 (0 : Fin 1) j))
          (fun k j => A7 (ix2 k j)) (fun j => A8 (ix2 (0 : Fin 1) j)) j := rfl

/-- The message from row blocks: `A9`, `A10` meet the destination rows and the edge output, `A11` and `A13` are the
    biases as one-row matrices. -/
def msgK (A0 : FVec Ideal ⟨2, ![3200000, 32]⟩ .f32) (E : FVec Ideal ⟨2, ![3200000, 6]⟩ .f32)
    (A9 : FVec Ideal ⟨2, ![32, 64]⟩ .f32) (A10 : FVec Ideal ⟨2, ![6, 64]⟩ .f32) (A11 : FVec Ideal ⟨2, ![1, 64]⟩ .f32)
    (A12 : FVec Ideal ⟨2, ![64, 32]⟩ .f32) (A13 : FVec Ideal ⟨2, ![1, 32]⟩ .f32) : FVec Ideal ⟨2, ![3200000, 32]⟩ .f32 :=
  fun i => msgRow (fun k => A0 (ix2 (⟨(i 0).val, idx2_lt0 i⟩ : Fin 3200000) k))
    (fun k => E (ix2 (⟨(i 0).val, idx2_lt0 i⟩ : Fin 3200000) k))
    (fun k j => A9 (ix2 k j)) (fun k j => A10 (ix2 k j)) (fun j => A11 (ix2 (0 : Fin 1) j))
    (fun k j => A12 (ix2 k j)) (fun j => A13 (ix2 (0 : Fin 1) j)) ⟨(i 1).val, idx2_lt1 i⟩

theorem msgK_apply (A0 : FVec Ideal ⟨2, ![3200000, 32]⟩ .f32) (E : FVec Ideal ⟨2, ![3200000, 6]⟩ .f32)
    (A9 : FVec Ideal ⟨2, ![32, 64]⟩ .f32) (A10 : FVec Ideal ⟨2, ![6, 64]⟩ .f32) (A11 : FVec Ideal ⟨2, ![1, 64]⟩ .f32)
    (A12 : FVec Ideal ⟨2, ![64, 32]⟩ .f32) (A13 : FVec Ideal ⟨2, ![1, 32]⟩ .f32) (e : Fin 3200000) (j : Fin 32) :
    msgK A0 E A9 A10 A11 A12 A13 (ix2 e j)
      = msgRow (fun k => A0 (ix2 e k)) (fun k => E (ix2 e k))
          (fun k j => A9 (ix2 k j)) (fun k j => A10 (ix2 k j)) (fun j => A11 (ix2 (0 : Fin 1) j))
          (fun k j => A12 (ix2 k j)) (fun j => A13 (ix2 (0 : Fin 1) j)) j := rfl

/-- With the row blocks cut out of the 70-row matrix and the biases viewed as one-row matrices, the edge output is
    the plain one. -/
theorem emK_eq_emArr (D S : FVec Ideal ⟨2, ![3200000, 32]⟩ .f32) (X : FVec Ideal ⟨2, ![3200000, 6]⟩ .f32)
    (W1 : FVec Ideal ⟨2, ![70, 32]⟩ .f32) (b1 : FVec Ideal ⟨1, ![32]⟩ .f32)
    (W2 : FVec Ideal ⟨2, ![32, 6]⟩ .f32) (b2 : FVec Ideal ⟨1, ![6]⟩ .f32)
    (h0 : (⟨2, ![70, 32]⟩ : Shape).Slices ![0, 0] ⟨2, ![32, 32]⟩)
    (h32 : (⟨2, ![70, 32]⟩ : Shape).Slices ![32, 0] ⟨2, ![32, 32]⟩)
    (h64 : (⟨2, ![70, 32]⟩ : Shape).Slices ![64, 0] ⟨2, ![6, 32]⟩)
    (hb1 : (⟨1, ![32]⟩ : Shape).ShapeCasts ⟨2, ![1, 32]⟩) (hb2 : (⟨1, ![6]⟩ : Shape).ShapeCasts ⟨2, ![1, 6]⟩) :
    emK D S X (extractStridedSlice ⟨2, ![32, 32]⟩ ![0, 0] W1 h0) (extractStridedSlice ⟨2, ![32, 32]⟩ ![32, 0] W1 h32)
        (extractStridedSlice ⟨2, ![6, 32]⟩ ![64, 0] W1 h64) (shapeCast ⟨2, ![1, 32]⟩ b1 hb1) W2 (shapeCast ⟨2, ![1, 6]⟩ b2 hb2)
      = emArr D S X W1 b1 W2 b2 := by
  funext i
  obtain ⟨e, j, rfl⟩ : ∃ (e : Fin 3200000) (j : Fin 6), i = ix2 e j := ⟨i 0, i 1, eq_ix2 i⟩
  rw [emK_apply, emArr_apply]
  unfold emAt
  -- rows 0–31, 32–63 and 64–69 of the 70-row matrix, read through the cuts
  have hWd : (fun (k : Fin 32) (j : Fin 32) => extractStridedSlice ⟨2, ![32, 32]⟩ ![0, 0] W1 h0 (ix2 k j))
      = fun k j => W1 (ix2 (⟨k.val, by omega⟩ : Fin 70) j) :=
    funext fun k => funext fun j => slice2_axis0_apply 0 W1 h0 k j ⟨k.val, by omega⟩ (Nat.zero_add _).symm
  have hWs : (fun (k : Fin 32) (j : Fin 32) => extractStridedSlice ⟨2, ![32, 32]⟩ ![32, 0] W1 h32 (ix2 k j))
      = fun k j => W1 (ix2 (⟨32 + k.val, by omega⟩ : Fin 70) j) :=
    funext fun k => funext fun j => slice2_axis0_apply 32 W1 h32 k j ⟨32 + k.val, by omega⟩ rfl
  have hWe : (fun (k : Fin 6) (j : Fin 32) => extractStridedSlice ⟨2, ![6, 32]⟩ ![64, 0] W1 h64 (ix2 k j))
      = fun k j => W1 (ix2 (⟨64 + k.val, by omega⟩ : Fin 70) j) :=
    funext fun k => funext fun j => slice2_axis0_apply 64 W1 h64 k j ⟨64 + k.val, by omega⟩ rfl
  -- the bias vectors, read through the one-row views
  have hB1 : (fun (j : Fin 32) => shapeCast ⟨2, ![1, 32]⟩ b1 hb1 (ix2 (0 : Fin 1) j)) = fun j => b1 (ix1 j) :=
    funext fun j => shapeCast_a_1a_apply b1 hb1 0 j
  have hB2 : (fun (j : Fin 6) => shapeCast ⟨2, ![1, 6]⟩ b2 hb2 (ix2 (0 : Fin 1) j)) = fun j => b2 (ix1 j) :=
    funext fun j => shapeCast_a_1a_apply b2 hb2 0 j
  rw [hWd, hWs, hWe, hB1, hB2]

/-- With the row blocks cut out of the 38-row matrix and the biases viewed as one-row matrices, the message is the
    plain one. -/
theorem msgK_eq_msgArr (D : FVec Ideal ⟨2, ![3200000, 32]⟩ .f32) (E : FVec Ideal ⟨2, ![3200000, 6]⟩ .f32)
    (V1 : FVec Ideal ⟨2, ![38, 64]⟩ .f32) (c : FVec Ideal ⟨1, ![64]⟩ .f32)
    (V2 : FVec Ideal ⟨2, ![64, 32]⟩ .f32) (u : FVec Ideal ⟨1, ![32]⟩ .f32)
    (h0 : (⟨2, ![38, 64]⟩ : Shape).Slices ![0, 0] ⟨2, ![32, 64]⟩)
    (h32 : (⟨2, ![38, 64]⟩ : Shape).Slices ![32, 0] ⟨2, ![6, 64]⟩)
    (hc : (⟨1, ![64]⟩ : Shape).ShapeCasts ⟨2, ![1, 64]⟩) (hu : (⟨1, ![32]⟩ : Shape).ShapeCasts ⟨2, ![1, 32]⟩) :
    msgK D E (extractStridedSlice ⟨2, ![32, 64]⟩ ![0, 0] V1 h0) (extractStridedSlice ⟨2, ![6, 64]⟩ ![32, 0] V1 h32)
        (shapeCast ⟨2, ![1, 64]⟩ c hc) V2 (shapeCast ⟨2, ![1, 32]⟩ u hu)
      = msgArr D E V1 c V2 u := by
  funext i
  obtain ⟨e, j, rfl⟩ : ∃ (e : Fin 3200000) (j : Fin 32), i = ix2 e j := ⟨i 0, i 1, eq_ix2 i⟩
  rw [msgK_apply, msgArr_apply]
  unfold msgAt
  -- rows 0–31 and 32–37 of the 38-row matrix, read through the cuts
  have hVd : (fun (k : Fin 32) (j : Fin 64) => extractStridedSlice ⟨2, ![32, 64]⟩ ![0, 0] V1 h0 (ix2 k j))
      = fun k j => V1 (ix2 (⟨k.val, by omega⟩ : Fin 38) j) :=
    funext fun k => funext fun j => slice2_axis0_apply 0 V1 h0 k j ⟨k.val, by omega⟩ (Nat.zero_add _).symm
  have hVe : (fun (k : Fin 6) (j : Fin 64) => extractStridedSlice ⟨2, ![6, 64]⟩ ![32, 0] V1 h32 (ix2 k j))
      = fun k j => V1 (ix2 (⟨32 + k.val, by omega⟩ : Fin 38) j) :=
    funext fun k => funext fun j => slice2_axis0_apply 32 V1 h32 k j ⟨32 + k.val, by omega⟩ rfl
  -- the bias vectors, read through the one-row views
  have hC : (fun (j : Fin 64) => shapeCast ⟨2, ![1, 64]⟩ c hc (ix2 (0 : Fin 1) j)) = fun j => c (ix1 j) :=
    funext fun j => shapeCast_a_1a_apply c hc 0 j
  have hU : (fun (j : Fin 32) => shapeCast ⟨2, ![1, 32]⟩ u hu (ix2 (0 : Fin 1) j)) = fun j => u (ix1 j) :=
    funext fun j => shapeCast_a_1a_apply u hu 0 j
  rw [hVd, hVe, hC, hU]

end Cert.EdgeNet

end
-- ==== Proof.KBlocks.lean ====
/-
  From blocks to arrays.  The region walks the edge list in 800 blocks of 4000 edges.  At block t the two outputs'
  staging buffers receive the edge network and the node network of the block's rows: rows 4000·t … 4000·t + 3999 of
  the destination rows, the source rows and the edge features, against weight blocks and bias rows that every grid
  point sees whole.  Each output block is written back to rows 4000·t … 4000·t + 3999 of its array, and the 800 blocks
  tile the 3,200,000 rows, so after the region each output array is the network of every edge's rows.
-/
import proofs.«402939_j77352361001089_1_alg».proof.Proof.Gen.KernelIdeal.Frame
import proofs.«402939_j77352361001089_1_alg».proof.Proof.KPayEm
import proofs.«402939_j77352361001089_1_alg».proof.Proof.KPayMsg
import proofs.«402939_j77352361001089_1_alg».proof.Proof.ArraysK
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.BlockValue

open Cert.KernelIdeal Cert.KernelIdeal.Gen Idealize.ShloMosaic.ValueIdx Cert

variable (m : (ℓ : Loc nD τ sig) → Buf (Elt Ideal) ℓ)

/-- The zero offset on both axes. -/
theorem off_zero : (![0, 0] : Fin 2 → Nat) = fun _ => 0 := funext fun a => by fin_cases a <;> rfl

/-- A grid point is below 800. -/
theorem point_lt (t : Fin cfg0.N) : t.val < 800 := lt_of_lt_of_eq t.isLt N_0

/-- The grid has one axis, so point t has coordinate t; as a 32-bit word it is still t. -/
theorem word_of_point (t : Fin cfg0.N) : (BitVec.ofNat 32 (grid0.coords t 0).val).toNat = t.val := by
  have ht := point_lt t
  have hc : (grid0.coords t 0).val = t.val := by
    show t.val / grid0.stride 0 % grid0.bound 0 = t.val
    rw [show grid0.stride 0 = 1 from by decide, show grid0.bound 0 = 800 from rfl, Nat.div_one, Nat.mod_eq_of_lt ht]
  rw [hc, BitVec.toNat_ofNat]
  exact Nat.mod_eq_of_lt (by omega)

/-- The windows that walk the edge list are at block (t, 0) at grid point t: the three per-edge inputs … -/
theorem idx0_0 (t : Fin cfg0.N) : win0_0.index t (0 : Fin 2) = t.val := word_of_point t
theorem idx0_1 (t : Fin cfg0.N) : win0_0.index t (1 : Fin 2) = 0 := rfl
theorem idx1_0 (t : Fin cfg0.N) : win0_1.index t (0 : Fin 2) = t.val := word_of_point t
theorem idx1_1 (t : Fin cfg0.N) : win0_1.index t (1 : Fin 2) = 0 := rfl
theorem idx2_0 (t : Fin cfg0.N) : win0_2.index t (0 : Fin 2) = t.val := word_of_point t
theorem idx2_1 (t : Fin cfg0.N) : win0_2.index t (1 : Fin 2) = 0 := rfl
/-- … and the two outputs. -/
theorem idx14_0 (t : Fin cfg0.N) : win0_14.index t (0 : Fin 2) = t.val := word_of_point t
theorem idx14_1 (t : Fin cfg0.N) : win0_14.index t (1 : Fin 2) = 0 := rfl
theorem idx15_0 (t : Fin cfg0.N) : win0_15.index t (0 : Fin 2) = t.val := word_of_point t
theorem idx15_1 (t : Fin cfg0.N) : win0_15.index t (1 : Fin 2) = 0 := rfl

/-- The weight blocks and the bias rows are whole at every grid point: block (0, 0). -/
theorem idx3 (t : Fin cfg0.N) (a : Fin 2) : win0_3.index t a = 0 := by fin_cases a <;> rfl
theorem idx4 (t : Fin cfg0.N) (a : Fin 2) : win0_4.index t a = 0 := by fin_cases a <;> rfl
theorem idx5 (t : Fin cfg0.N) (a : Fin 2) : win0_5.index t a = 0 := by fin_cases a <;> rfl
theorem idx6 (t : Fin cfg0.N) (a : Fin 2) : win0_6.index t a = 0 := by fin_cases a <;> rfl
theorem idx7 (t : Fin cfg0.N) (a : Fin 2) : win0_7.index t a = 0 := by fin_cases a <;> rfl
theorem idx8 (t : Fin cfg0.N) (a : Fin 2) : win0_8.index t a = 0 := by fin_cases a <;> rfl
theorem idx9 (t : Fin cfg0.N) (a : Fin 2) : win0_9.index t a = 0 := by fin_cases a <;> rfl
theorem idx10 (t : Fin cfg0.N) (a : Fin 2) : win0_10.index t a = 0 := by fin_cases a <;> rfl
theorem idx11 (t : Fin cfg0.N) (a : Fin 2) : win0_11.index t a = 0 := by fin_cases a <;> rfl
theorem idx12 (t : Fin cfg0.N) (a : Fin 2) : win0_12.index t a = 0 := by fin_cases a <;> rfl
theorem idx13 (t : Fin cfg0.N) (a : Fin 2) : win0_13.index t a = 0 := by fin_cases a <;> rfl

/-- Row p of block t is edge 4000·t + p, one of the 3,200,000 edges. -/
theorem row_lt (t : Fin cfg0.N) (p : Fin 4000) : 4000 * t.val + p.val < 3200000 := by
  have ht := point_lt t
  have hp := p.isLt
  omega

/-- Edge 4000·t + p. -/
abbrev edgeOf (t : Fin cfg0.N) (p : Fin 4000) : Fin 3200000 := ⟨4000 * t.val + p.val, row_lt t p⟩

/-- Block t of the destination rows, and their whole array. -/
abbrev dstBlk (c : Dev nD) (t : Fin cfg0.N) : Vec Ideal S4000x32 .f32 := iblk m c 0 t
abbrev dstArr (c : Dev nD) : Vec Ideal S3200000x32 .f32 := V m c main_v0
theorem dstArr_eq (c : Dev nD) (x : S3200000x32.Idx) : V m c (Pipeline.arrRef spec0 0) x = dstArr m c x := rfl
/-- Row p of block t of the destination rows is row 4000·t + p of the array. -/
theorem dstBlk_apply (c : Dev nD) (t : Fin cfg0.N) (p : Fin 4000) (k : Fin 32) :
    dstBlk m c t (ix2 p k) = dstArr m c (ix2 (edgeOf t p) k) := by
  unfold dstBlk iblk
  rw [View.read_apply, cast_eq]
  refine (dstArr_eq m c _).trans ?_
  refine congrArg (dstArr m c) ?_
  funext a; apply Fin.ext
  match a with
  | ⟨0, _⟩ => show win0_0.index t (0 : Fin 2) * 4000 + 1 * p.val = 4000 * t.val + p.val; rw [idx0_0]; omega
  | ⟨1, _⟩ => show win0_0.index t (1 : Fin 2) * 32 + 1 * k.val = k.val; rw [idx0_1]; omega

/-- Block t of the source rows, and their whole array. -/
abbrev srcBlk (c : Dev nD) (t : Fin cfg0.N) : Vec Ideal S4000x32 .f32 := iblk m c 1 t
abbrev srcArr (c : Dev nD) : Vec Ideal S3200000x32 .f32 := V m c main_v1
theorem srcArr_eq (c : Dev nD) (x : S3200000x32.Idx) : V m c (Pipeline.arrRef spec0 1) x = srcArr m c x := rfl
/-- Row p of block t of the source rows is row 4000·t + p of the array. -/
theorem srcBlk_apply (c : Dev nD) (t : Fin cfg0.N) (p : Fin 4000) (k : Fin 32) :
    srcBlk m c t (ix2 p k) = srcArr m c (ix2 (edgeOf t p) k) := by
  unfold srcBlk iblk
  rw [View.read_apply, cast_eq]
  refine (srcArr_eq m c _).trans ?_
  refine congrArg (srcArr m c) ?_
  funext a; apply Fin.ext
  match a with
  | ⟨0, _⟩ => show win0_1.index t (0 : Fin 2) * 4000 + 1 * p.val = 4000 * t.val + p.val; rw [idx1_0]; omega
  | ⟨1, _⟩ => show win0_1.index t (1 : Fin 2) * 32 + 1 * k.val = k.val; rw [idx1_1]; omega

/-- Block t of the edge features, and their whole array. -/
abbrev featBlk (c : Dev nD) (t : Fin cfg0.N) : Vec Ideal S4000x6 .f32 := iblk m c 2 t
abbrev featArr (c : Dev nD) : Vec Ideal S3200000x6 .f32 := V m c main_arg1
theorem featArr_eq (c : Dev nD) (x : S3200000x6.Idx) : V m c (Pipeline.arrRef spec0 2) x = featArr m c x := rfl
/-- Row p of block t of the edge features is row 4000·t + p of the array. -/
theorem featBlk_apply (c : Dev nD) (t : Fin cfg0.N) (p : Fin 4000) (k : Fin 6) :
    featBlk m c t (ix2 p k) = featArr m c (ix2 (edgeOf t p) k) := by
  unfold featBlk iblk
  rw [View.read_apply, cast_eq]
  refine (featArr_eq m c _).trans ?_
  refine congrArg (featArr m c) ?_
  funext a; apply Fin.ext
  match a with
  | ⟨0, _⟩ => show win0_2.index t (0 : Fin 2) * 4000 + 1 * p.val = 4000 * t.val + p.val; rw [idx2_0]; omega
  | ⟨1, _⟩ => show win0_2.index t (1 : Fin 2) * 6 + 1 * k.val = k.val; rw [idx2_1]; omega

/-- The first-layer weights meeting the destination row: the block every grid point sees, and the array. -/
abbrev wDstBlk (c : Dev nD) (t : Fin cfg0.N) : Vec Ideal S32x32 .f32 := iblk m c 3 t
abbrev wDstArr (c : Dev nD) : Vec Ideal S32x32 .f32 := V m c main_v2
theorem wDstArr_eq (c : Dev nD) (x : S32x32.Idx) : V m c (Pipeline.arrRef spec0 3) x = wDstArr m c x := rfl
/-- The block is the whole array at every grid point. -/
theorem wDstBlk_eq (c : Dev nD) (t : Fin cfg0.N) : wDstBlk m c t = wDstArr m c := by
  funext y
  obtain ⟨k, j, rfl⟩ : ∃ (k : Fin 32) (j : Fin 32), y = ix2 k j := ⟨y 0, y 1, eq_ix2 y⟩
  unfold wDstBlk iblk
  rw [View.read_apply, cast_eq]
  refine (wDstArr_eq m c _).trans ?_
  refine congrArg (wDstArr m c) ?_
  funext a; apply Fin.ext
  match a with
  | ⟨0, _⟩ => show win0_3.index t (0 : Fin 2) * 32 + 1 * k.val = k.val; rw [idx3]; omega
  | ⟨1, _⟩ => show win0_3.index t (1 : Fin 2) * 32 + 1 * j.val = j.val; rw [idx3]; omega

/-- The first-layer weights meeting the source row: the block every grid point sees, and the array. -/
abbrev wSrcBlk (c : Dev nD) (t : Fin cfg0.N) : Vec Ideal S32x32 .f32 := iblk m c 4 t
abbrev wSrcArr (c : Dev nD) : Vec Ideal S32x32 .f32 := V m c main_v3
theorem wSrcArr_eq (c : Dev nD) (x : S32x32.Idx) : V m c (Pipeline.arrRef spec0 4) x = wSrcArr m c x := rfl
/-- The block is the whole array at every grid point. -/
theorem wSrcBlk_eq (c : Dev nD) (t : Fin cfg0.N) : wSrcBlk m c t = wSrcArr m c := by
  funext y
  obtain ⟨k, j, rfl⟩ : ∃ (k : Fin 32) (j : Fin 32), y = ix2 k j := ⟨y 0, y 1, eq_ix2 y⟩
  unfold wSrcBlk iblk
  rw [View.read_apply, cast_eq]
  refine (wSrcArr_eq m c _).trans ?_
  refine congrArg (wSrcArr m c) ?_
  funext a; apply Fin.ext
  match a with
  | ⟨0, _⟩ => show win0_4.index t (0 : Fin 2) * 32 + 1 * k.val = k.val; rw [idx4]; omega
  | ⟨1, _⟩ => show win0_4.index t (1 : Fin 2) * 32 + 1 * j.val = j.val; rw [idx4]; omega

/-- The first-layer weights meeting the edge features: the block every grid point sees, and the array. -/
abbrev wFeatBlk (c : Dev nD) (t : Fin cfg0.N) : Vec Ideal S6x32 .f32 := iblk m c 5 t
abbrev wFeatArr (c : Dev nD) : Vec Ideal S6x32 .f32 := V m c main_v4
theorem wFeatArr_eq (c : Dev nD) (x : S6x32.Idx) : V m c (Pipeline.arrRef spec0 5) x = wFeatArr m c x := rfl
/-- The block is the whole array at every grid point. -/
theorem wFeatBlk_eq (c : Dev nD) (t : Fin cfg0.N) : wFeatBlk m c t = wFeatArr m c := by
  funext y
  obtain ⟨k, j, rfl⟩ : ∃ (k : Fin 6) (j : Fin 32), y = ix2 k j := ⟨y 0, y 1, eq_ix2 y⟩
  unfold wFeatBlk iblk
  rw [View.read_apply, cast_eq]
  refine (wFeatArr_eq m c _).trans ?_
  refine congrArg (wFeatArr m c) ?_
  funext a; apply Fin.ext
  match a with
  | ⟨0, _⟩ => show win0_5.index t (0 : Fin 2) * 6 + 1 * k.val = k.val; rw [idx5]; omega
  | ⟨1, _⟩ => show win0_5.index t (1 : Fin 2) * 32 + 1 * j.val = j.val; rw [idx5]; omega

/-- The edge network's first bias as a one-row matrix: the block every grid point sees, and the array. -/
abbrev b1RowBlk (c : Dev nD) (t : Fin cfg0.N) : Vec Ideal S1x32 .f32 := iblk m c 6 t
abbrev b1RowArr (c : Dev nD) : Vec Ideal S1x32 .f32 := V m c main_v5
theorem b1RowArr_eq (c : Dev nD) (x : S1x32.Idx) : V m c (Pipeline.arrRef spec0 6) x = b1RowArr m c x := rfl
/-- The block is the whole array at every grid point. -/
theorem b1RowBlk_eq (c : Dev nD) (t : Fin cfg0.N) : b1RowBlk m c t = b1RowArr m c := by
  funext y
  obtain ⟨k, j, rfl⟩ : ∃ (k : Fin 1) (j : Fin 32), y = ix2 k j := ⟨y 0, y 1, eq_ix2 y⟩
  unfold b1RowBlk iblk
  rw [View.read_apply, cast_eq]
  refine (b1RowArr_eq m c _).trans ?_
  refine congrArg (b1RowArr m c) ?_
  funext a; apply Fin.ext
  match a with
  | ⟨0, _⟩ => show win0_6.index t (0 : Fin 2) * 1 + 1 * k.val = k.val; rw [idx6]; omega
  | ⟨1, _⟩ => show win0_6.index t (1 : Fin 2) * 32 + 1 * j.val = j.val; rw [idx6]; omega

/-- The edge network's second layer: the block every grid point sees, and the array. -/
abbrev wOutBlk (c : Dev nD) (t : Fin cfg0.N) : Vec Ideal S32x6 .f32 := iblk m c 7 t
abbrev wOutArr (c : Dev nD) : Vec Ideal S32x6 .f32 := V m c main_arg6
theorem wOutArr_eq (c : Dev nD) (x : S32x6.Idx) : V m c (Pipeline.arrRef spec0 7) x = wOutArr m c x := rfl
/-- The block is the whole array at every grid point. -/
theorem wOutBlk_eq (c : Dev nD) (t : Fin cfg0.N) : wOutBlk m c t = wOutArr m c := by
  funext y
  obtain ⟨k, j, rfl⟩ : ∃ (k : Fin 32) (j : Fin 6), y = ix2 k j := ⟨y 0, y 1, eq_ix2 y⟩
  unfold wOutBlk iblk
  rw [View.read_apply, cast_eq]
  refine (wOutArr_eq m c _).trans ?_
  refine congrArg (wOutArr m c) ?_
  funext a; apply Fin.ext
  match a with
  | ⟨0, _⟩ => show win0_7.index t (0 : Fin 2) * 32 + 1 * k.val = k.val; rw [idx7]; omega
  | ⟨1, _⟩ => show win0_7.index t (1 : Fin 2) * 6 + 1 * j.val = j.val; rw [idx7]; omega

/-- The edge network's second bias as a one-row matrix: the block every grid point sees, and the array. -/
abbrev b2RowBlk (c : Dev nD) (t : Fin cfg0.N) : Vec Ideal S1x6 .f32 := iblk m c 8 t
abbrev b2RowArr (c : Dev nD) : Vec Ideal S1x6 .f32 := V m c main_v6
theorem b2RowArr_eq (c : Dev nD) (x : S1x6.Idx) : V m c (Pipeline.arrRef spec0 8) x = b2RowArr m c x := rfl
/-- The block is the whole array at every grid point. -/
theorem b2RowBlk_eq (c : Dev nD) (t : Fin cfg0.N) : b2RowBlk m c t = b2RowArr m c := by
  funext y
  obtain ⟨k, j, rfl⟩ : ∃ (k : Fin 1) (j : Fin 6), y = ix2 k j := ⟨y 0, y 1, eq_ix2 y⟩
  unfold b2RowBlk iblk
  rw [View.read_apply, cast_eq]
  refine (b2RowArr_eq m c _).trans ?_
  refine congrArg (b2RowArr m c) ?_
  funext a; apply Fin.ext
  match a with
  | ⟨0, _⟩ => show win0_8.index t (0 : Fin 2) * 1 + 1 * k.val = k.val; rw [idx8]; omega
  | ⟨1, _⟩ => show win0_8.index t (1 : Fin 2) * 6 + 1 * j.val = j.val; rw [idx8]; omega

/-- The node network's weights meeting the destination row: the block every grid point sees, and the array. -/
abbrev vDstBlk (c : Dev nD) (t : Fin cfg0.N) : Vec Ideal S32x64 .f32 := iblk m c 9 t
abbrev vDstArr (c : Dev nD) : Vec Ideal S32x64 .f32 := V m c main_v7
theorem vDstArr_eq (c : Dev nD) (x : S32x64.Idx) : V m c (Pipeline.arrRef spec0 9) x = vDstArr m c x := rfl
/-- The block is the whole array at every grid point. -/
theorem vDstBlk_eq (c : Dev nD) (t : Fin cfg0.N) : vDstBlk m c t = vDstArr m c := by
  funext y
  obtain ⟨k, j, rfl⟩ : ∃ (k : Fin 32) (j : Fin 64), y = ix2 k j := ⟨y 0, y 1, eq_ix2 y⟩
  unfold vDstBlk iblk
  rw [View.read_apply, cast_eq]
  refine (vDstArr_eq m c _).trans ?_
  refine congrArg (vDstArr m c) ?_
  funext a; apply Fin.ext
  match a with
  | ⟨0, _⟩ => show win0_9.index t (0 : Fin 2) * 32 + 1 * k.val = k.val; rw [idx9]; omega
  | ⟨1, _⟩ => show win0_9.index t (1 : Fin 2) * 64 + 1 * j.val = j.val; rw [idx9]; omega

/-- The node network's weights meeting the edge output: the block every grid point sees, and the array. -/
abbrev vEmBlk (c : Dev nD) (t : Fin cfg0.N) : Vec Ideal S6x64 .f32 := iblk m c 10 t
abbrev vEmArr (c : Dev nD) : Vec Ideal S6x64 .f32 := V m c main_v8
theorem vEmArr_eq (c : Dev nD) (x : S6x64.Idx) : V m c (Pipeline.arrRef spec0 10) x = vEmArr m c x := rfl
/-- The block is the whole array at every grid point. -/
theorem vEmBlk_eq (c : Dev nD) (t : Fin cfg0.N) : vEmBlk m c t = vEmArr m c := by
  funext y
  obtain ⟨k, j, rfl⟩ : ∃ (k : Fin 6) (j : Fin 64), y = ix2 k j := ⟨y 0, y 1, eq_ix2 y⟩
  unfold vEmBlk iblk
  rw [View.read_apply, cast_eq]
  refine (vEmArr_eq m c _).trans ?_
  refine congrArg (vEmArr m c) ?_
  funext a; apply Fin.ext
  match a with
  | ⟨0, _⟩ => show win0_10.index t (0 : Fin 2) * 6 + 1 * k.val = k.val; rw [idx10]; omega
  | ⟨1, _⟩ => show win0_10.index t (1 : Fin 2) * 64 + 1 * j.val = j.val; rw [idx10]; omega

/-- The node network's first bias as a one-row matrix: the block every grid point sees, and the array. -/
abbrev cRowBlk (c : Dev nD) (t : Fin cfg0.N) : Vec Ideal S1x64 .f32 := iblk m c 11 t
abbrev cRowArr (c : Dev nD) : Vec Ideal S1x64 .f32 := V m c main_v9
theorem cRowArr_eq (c : Dev nD) (x : S1x64.Idx) : V m c (Pipeline.arrRef spec0 11) x = cRowArr m c x := rfl
/-- The block is the whole array at every grid point. -/
theorem cRowBlk_eq (c : Dev nD) (t : Fin cfg0.N) : cRowBlk m c t = cRowArr m c := by
  funext y
  obtain ⟨k, j, rfl⟩ : ∃ (k : Fin 1) (j : Fin 64), y = ix2 k j := ⟨y 0, y 1, eq_ix2 y⟩
  unfold cRowBlk iblk
  rw [View.read_apply, cast_eq]
  refine (cRowArr_eq m c _).trans ?_
  refine congrArg (cRowArr m c) ?_
  funext a; apply Fin.ext
  match a with
  | ⟨0, _⟩ => show win0_11.index t (0 : Fin 2) * 1 + 1 * k.val = k.val; rw [idx11]; omega
  | ⟨1, _⟩ => show win0_11.index t (1 : Fin 2) * 64 + 1 * j.val = j.val; rw [idx11]; omega

/-- The node network's second layer: the block every grid point sees, and the array. -/
abbrev uMatBlk (c : Dev nD) (t : Fin cfg0.N) : Vec Ideal S64x32 .f32 := iblk m c 12 t
abbrev uMatArr (c : Dev nD) : Vec Ideal S64x32 .f32 := V m c main_arg10
theorem uMatArr_eq (c : Dev nD) (x : S64x32.Idx) : V m c (Pipeline.arrRef spec0 12) x = uMatArr m c x := rfl
/-- The block is the whole array at every grid point. -/
theorem uMatBlk_eq (c : Dev nD) (t : Fin cfg0.N) : uMatBlk m c t = uMatArr m c := by
  funext y
  obtain ⟨k, j, rfl⟩ : ∃ (k : Fin 64) (j : Fin 32), y = ix2 k j := ⟨y 0, y 1, eq_ix2 y⟩
  unfold uMatBlk iblk
  rw [View.read_apply, cast_eq]
  refine (uMatArr_eq m c _).trans ?_
  refine congrArg (uMatArr m c) ?_
  funext a; apply Fin.ext
  match a with
  | ⟨0, _⟩ => show win0_12.index t (0 : Fin 2) * 64 + 1 * k.val = k.val; rw [idx12]; omega
  | ⟨1, _⟩ => show win0_12.index t (1 : Fin 2) * 32 + 1 * j.val = j.val; rw [idx12]; omega

/-- The node network's second bias as a one-row matrix: the block every grid point sees, and the array. -/
abbrev uRowBlk (c : Dev nD) (t : Fin cfg0.N) : Vec Ideal S1x32 .f32 := iblk m c 13 t
abbrev uRowArr (c : Dev nD) : Vec Ideal S1x32 .f32 := V m c main_v10
theorem uRowArr_eq (c : Dev nD) (x : S1x32.Idx) : V m c (Pipeline.arrRef spec0 13) x = uRowArr m c x := rfl
/-- The block is the whole array at every grid point. -/
theorem uRowBlk_eq (c : Dev nD) (t : Fin cfg0.N) : uRowBlk m c t = uRowArr m c := by
  funext y
  obtain ⟨k, j, rfl⟩ : ∃ (k : Fin 1) (j : Fin 32), y = ix2 k j := ⟨y 0, y 1, eq_ix2 y⟩
  unfold uRowBlk iblk
  rw [View.read_apply, cast_eq]
  refine (uRowArr_eq m c _).trans ?_
  refine congrArg (uRowArr m c) ?_
  funext a; apply Fin.ext
  match a with
  | ⟨0, _⟩ => show win0_13.index t (0 : Fin 2) * 1 + 1 * k.val = k.val; rw [idx13]; omega
  | ⟨1, _⟩ => show win0_13.index t (1 : Fin 2) * 32 + 1 * j.val = j.val; rw [idx13]; omega

/-- The edge network of every edge's rows, over the arrays as the region finds them. -/
abbrev emArr (c : Dev nD) : Vec Ideal S3200000x6 .f32 := EdgeNet.emK (V m c main_v0) (V m c main_v1) (V m c main_arg1) (V m c main_v2) (V m c main_v3) (V m c main_v4) (V m c main_v5) (V m c main_arg6) (V m c main_v6)

/-- The edge network of row p of the blocks at grid point t is the edge network of edge 4000·t + p: row p of block t
    is row 4000·t + p of each per-edge array, and the weight blocks and bias rows are the whole arrays. -/
theorem em_row (c : Dev nD) (t : Fin cfg0.N) (p : Fin 4000) (q : Fin 6) :
    k0_pay3 (F := Ideal) (dstBlk m c t) (srcBlk m c t) (featBlk m c t) (wDstBlk m c t) (wSrcBlk m c t) (wFeatBlk m c t) (b1RowBlk m c t) (wOutBlk m c t) (b2RowBlk m c t) (ix2 p q) = emArr m c (ix2 (edgeOf t p) q) := by
  refine Eq.trans ?_ (EdgeNet.emK_apply (V m c main_v0) (V m c main_v1) (V m c main_arg1) (V m c main_v2) (V m c main_v3) (V m c main_v4) (V m c main_v5) (V m c main_arg6) (V m c main_v6) (edgeOf t p) q).symm
  refine (BodyValue.pay_em (dstBlk m c t) (srcBlk m c t) (featBlk m c t) (wDstBlk m c t) (wSrcBlk m c t) (wFeatBlk m c t) (b1RowBlk m c t) (wOutBlk m c t) (b2RowBlk m c t) p q).trans ?_
  simp only [dstBlk_apply, srcBlk_apply, featBlk_apply, wDstBlk_eq, wSrcBlk_eq, wFeatBlk_eq, b1RowBlk_eq, wOutBlk_eq, b2RowBlk_eq]

/-- Entry (p, q) of block t of the edge output array is entry (4000·t + p, q) of the array. -/
theorem emb14 (t : Fin cfg0.N) (p : Fin 4000) (q : Fin 6) :
    ((cfg0.win 14).blk t).view.emb (ix2 p q) = (ix2 (edgeOf t p) q : S3200000x6.Idx) := by
  funext a; apply Fin.ext
  match a with
  | ⟨0, _⟩ => show win0_14.index t (0 : Fin 2) * 4000 + 1 * p.val = 4000 * t.val + p.val; rw [idx14_0]; omega
  | ⟨1, _⟩ => show win0_14.index t (1 : Fin 2) * 6 + 1 * q.val = q.val; rw [idx14_1]; omega

/-- What grid point t writes back to the edge output array is block t of the edge network of every edge's rows. -/
theorem flushed_em (c : Dev nD) (t : Fin cfg0.N) :
    (dats (F := Ideal) m 0 c).flushed 14 t = ((cfg0.win 14).blk t).view.read (Elt Ideal) (EdgeNet.emK (V m c main_v0) (V m c main_v1) (V m c main_arg1) (V m c main_v2) (V m c main_v3) (V m c main_v4) (V m c main_v5) (V m c main_arg6) (V m c main_v6)) := by
  show (cfg0.win 14).cut (grid0.coords t) ((dats m 0 c).after 14 t) = _
  rw [after0_14]
  unfold out0_14
  rw [View.canon_unit_zero off_zero]
  simp only [View.ld_unit_zero (S := S4000x32) off_zero, View.ld_unit_zero (S := S4000x6) off_zero, View.ld_unit_zero (S := S32x32) off_zero, View.ld_unit_zero (S := S6x32) off_zero, View.ld_unit_zero (S := S1x32) off_zero, View.ld_unit_zero (S := S32x6) off_zero, View.ld_unit_zero (S := S1x6) off_zero, View.ld_unit_zero (S := S32x64) off_zero, View.ld_unit_zero (S := S6x64) off_zero, View.ld_unit_zero (S := S1x64) off_zero, View.ld_unit_zero (S := S64x32) off_zero]
  funext y
  obtain ⟨p, q, rfl⟩ : ∃ (p : Fin 4000) (q : Fin 6), y = ix2 p q := ⟨y 0, y 1, eq_ix2 y⟩
  -- the right side at (p, q) is the array at (4000·t + p, q)
  rw [View.read_apply, cast_eq]
  refine Eq.trans ?_ (congrArg (emArr m c) (emb14 t p q).symm)
  exact em_row m c t p q
/-- An index of the edge output array is in grid point t's block iff each coordinate is in the block's range. -/
theorem mem_blk14 (t : Fin cfg0.N) (i : S3200000x6.Idx) :
    i ∈ ((cfg0.win 14).blk t).view.set ↔ ∀ a : Fin 2, win0_14.index t a * S4000x6.size a ≤ (i a).val ∧ (i a).val < win0_14.index t a * S4000x6.size a + S4000x6.size a := by
  show i ∈ ((View.whole main_v11_0).slice (win0_14.rect t)).set ↔ _
  rw [View.set_slice_whole, Rect.mem_set_unit]
  exact Iff.rfl

/-- Row r of the edge output array is written back by grid point r / 4000: the 800 blocks tile the 3,200,000 rows. -/
theorem cover14 (i : S3200000x6.Idx) :
    ∃ t : Fin cfg0.N, (cfg0.win 14).flush t = true ∧ i ∈ ((cfg0.win 14).blk t).view.set := by
  have hi0 : (i 0).val < 3200000 := idx2_lt0 i
  have hi1 : (i 1).val < 6 := idx2_lt1 i
  have hN : (i 0).val / 4000 < cfg0.N := by rw [show cfg0.N = 800 from N_0]; omega
  refine ⟨⟨(i 0).val / 4000, hN⟩, flush0_14 _, ?_⟩
  rw [mem_blk14]
  intro a
  match a with
  | ⟨0, _⟩ =>
    show win0_14.index ⟨(i 0).val / 4000, hN⟩ (0 : Fin 2) * 4000 ≤ (i 0).val ∧ (i 0).val < win0_14.index ⟨(i 0).val / 4000, hN⟩ (0 : Fin 2) * 4000 + 4000
    rw [idx14_0]
    show (i 0).val / 4000 * 4000 ≤ (i 0).val ∧ (i 0).val < (i 0).val / 4000 * 4000 + 4000
    omega
  | ⟨1, _⟩ =>
    show win0_14.index ⟨(i 0).val / 4000, hN⟩ (1 : Fin 2) * 6 ≤ (i 1).val ∧ (i 1).val < win0_14.index ⟨(i 0).val / 4000, hN⟩ (1 : Fin 2) * 6 + 6
    rw [idx14_1]
    omega

/-- The node network of every edge's destination row and edge output, over the arrays as the region finds them. -/
abbrev msgArr (c : Dev nD) : Vec Ideal S3200000x32 .f32 :=
  EdgeNet.msgK (V m c main_v0) (EdgeNet.emK (V m c main_v0) (V m c main_v1) (V m c main_arg1) (V m c main_v2) (V m c main_v3) (V m c main_v4) (V m c main_v5) (V m c main_arg6) (V m c main_v6))
          (V m c main_v7) (V m c main_v8) (V m c main_v9) (V m c main_arg10) (V m c main_v10)

/-- Entry (p, q) of block t of the message array is entry (4000·t + p, q) of the array. -/
theorem emb15 (t : Fin cfg0.N) (p : Fin 4000) (q : Fin 32) :
    ((cfg0.win 15).blk t).view.emb (ix2 p q) = (ix2 (edgeOf t p) q : S3200000x32.Idx) := by
  funext a; apply Fin.ext
  match a with
  | ⟨0, _⟩ => show win0_15.index t (0 : Fin 2) * 4000 + 1 * p.val = 4000 * t.val + p.val; rw [idx15_0]; omega
  | ⟨1, _⟩ => show win0_15.index t (1 : Fin 2) * 32 + 1 * q.val = q.val; rw [idx15_1]; omega

/-- What grid point t writes back to the message array is block t of the node network of every edge's destination
    row and edge output. -/
theorem flushed_msg (c : Dev nD) (t : Fin cfg0.N) :
    (dats (F := Ideal) m 0 c).flushed 15 t = ((cfg0.win 15).blk t).view.read (Elt Ideal) (EdgeNet.msgK (V m c main_v0) (EdgeNet.emK (V m c main_v0) (V m c main_v1) (V m c main_arg1) (V m c main_v2) (V m c main_v3) (V m c main_v4) (V m c main_v5) (V m c main_arg6) (V m c main_v6))
          (V m c main_v7) (V m c main_v8) (V m c main_v9) (V m c main_arg10) (V m c main_v10)) := by
  show (cfg0.win 15).cut (grid0.coords t) ((dats m 0 c).after 15 t) = _
  rw [after0_15]
  unfold out0_15
  rw [View.canon_unit_zero off_zero]
  simp only [View.ld_unit_zero (S := S4000x32) off_zero, View.ld_unit_zero (S := S4000x6) off_zero, View.ld_unit_zero (S := S32x32) off_zero, View.ld_unit_zero (S := S6x32) off_zero, View.ld_unit_zero (S := S1x32) off_zero, View.ld_unit_zero (S := S32x6) off_zero, View.ld_unit_zero (S := S1x6) off_zero, View.ld_unit_zero (S := S32x64) off_zero, View.ld_unit_zero (S := S6x64) off_zero, View.ld_unit_zero (S := S1x64) off_zero, View.ld_unit_zero (S := S64x32) off_zero]
  funext y
  obtain ⟨p, q, rfl⟩ : ∃ (p : Fin 4000) (q : Fin 32), y = ix2 p q := ⟨y 0, y 1, eq_ix2 y⟩
  -- the right side at (p, q) is the array at (4000·t + p, q): the node network of edge 4000·t + p
  rw [View.read_apply, cast_eq]
  refine Eq.trans ?_ (congrArg (msgArr m c) (emb15 t p q).symm)
  refine Eq.trans ?_ (EdgeNet.msgK_apply (V m c main_v0) (EdgeNet.emK (V m c main_v0) (V m c main_v1) (V m c main_arg1) (V m c main_v2) (V m c main_v3) (V m c main_v4) (V m c main_v5) (V m c main_arg6) (V m c main_v6)) (V m c main_v7) (V m c main_v8) (V m c main_v9) (V m c main_arg10) (V m c main_v10) (edgeOf t p) q).symm
  -- the left side at (p, q): the node network of row p of the destination block and of the block's edge outputs
  refine (BodyValue.pay_msg (dstBlk m c t) (k0_pay3 (F := Ideal) (dstBlk m c t) (srcBlk m c t) (featBlk m c t) (wDstBlk m c t) (wSrcBlk m c t) (wFeatBlk m c t) (b1RowBlk m c t) (wOutBlk m c t) (b2RowBlk m c t)) (vDstBlk m c t) (vEmBlk m c t) (cRowBlk m c t) (uMatBlk m c t) (uRowBlk m c t) p q).trans ?_
  -- row p of the block's edge outputs is the edge output of edge 4000·t + p; the other blocks as before
  simp only [em_row, dstBlk_apply, vDstBlk_eq, vEmBlk_eq, cRowBlk_eq, uMatBlk_eq, uRowBlk_eq]

/-- An index of the message array is in grid point t's block iff each coordinate is in the block's range. -/
theorem mem_blk15 (t : Fin cfg0.N) (i : S3200000x32.Idx) :
    i ∈ ((cfg0.win 15).blk t).view.set ↔ ∀ a : Fin 2, win0_15.index t a * S4000x32.size a ≤ (i a).val ∧ (i a).val < win0_15.index t a * S4000x32.size a + S4000x32.size a := by
  show i ∈ ((View.whole main_v11_1).slice (win0_15.rect t)).set ↔ _
  rw [View.set_slice_whole, Rect.mem_set_unit]
  exact Iff.rfl

/-- Row r of the message array is written back by grid point r / 4000. -/
theorem cover15 (i : S3200000x32.Idx) :
    ∃ t : Fin cfg0.N, (cfg0.win 15).flush t = true ∧ i ∈ ((cfg0.win 15).blk t).view.set := by
  have hi0 : (i 0).val < 3200000 := idx2_lt0 i
  have hi1 : (i 1).val < 32 := idx2_lt1 i
  have hN : (i 0).val / 4000 < cfg0.N := by rw [show cfg0.N = 800 from N_0]; omega
  refine ⟨⟨(i 0).val / 4000, hN⟩, flush0_15 _, ?_⟩
  rw [mem_blk15]
  intro a
  match a with
  | ⟨0, _⟩ =>
    show win0_15.index ⟨(i 0).val / 4000, hN⟩ (0 : Fin 2) * 4000 ≤ (i 0).val ∧ (i 0).val < win0_15.index ⟨(i 0).val / 4000, hN⟩ (0 : Fin 2) * 4000 + 4000
    rw [idx15_0]
    show (i 0).val / 4000 * 4000 ≤ (i 0).val ∧ (i 0).val < (i 0).val / 4000 * 4000 + 4000
    omega
  | ⟨1, _⟩ =>
    show win0_15.index ⟨(i 0).val / 4000, hN⟩ (1 : Fin 2) * 32 ≤ (i 1).val ∧ (i 1).val < win0_15.index ⟨(i 0).val / 4000, hN⟩ (1 : Fin 2) * 32 + 32
    rw [idx15_1]
    omega

/-- After the region the edge output array is the edge network of every edge's rows, over the arrays as the region
    finds them. -/
theorem final_em (c : Dev nD) :
    (dats (F := Ideal) m 0 c).arrAt 14 cfg0.N = (EdgeNet.emK (V m c main_v0) (V m c main_v1) (V m c main_arg1) (V m c main_v2) (V m c main_v3) (V m c main_v4) (V m c main_v5) (V m c main_arg6) (V m c main_v6)) := by
  exact (dats m 0 c).arrAt_eq_of_cover 14 (EdgeNet.emK (V m c main_v0) (V m c main_v1) (V m c main_arg1) (V m c main_v2) (V m c main_v3) (V m c main_v4) (V m c main_v5) (V m c main_arg6) (V m c main_v6)) (fun t _ => flushed_em m c t) cover14

/-- After the region the message array is the node network of every edge's destination row and edge output. -/
theorem final_msg (c : Dev nD) :
    (dats (F := Ideal) m 0 c).arrAt 15 cfg0.N
      = EdgeNet.msgK (V m c main_v0) (EdgeNet.emK (V m c main_v0) (V m c main_v1) (V m c main_arg1) (V m c main_v2) (V m c main_v3) (V m c main_v4) (V m c main_v5) (V m c main_arg6) (V m c main_v6))
          (V m c main_v7) (V m c main_v8) (V m c main_v9) (V m c main_arg10) (V m c main_v10) := by
  exact (dats m 0 c).arrAt_eq_of_cover 15 (EdgeNet.msgK (V m c main_v0) (EdgeNet.emK (V m c main_v0) (V m c main_v1) (V m c main_arg1) (V m c main_v2) (V m c main_v3) (V m c main_v4) (V m c main_v5) (V m c main_arg6) (V m c main_v6))
          (V m c main_v7) (V m c main_v8) (V m c main_v9) (V m c main_arg10) (V m c main_v10)) (fun t _ => flushed_msg m c t) cover15

end Cert.KernelIdeal.BlockValue

end
-- ==== Proof.KRun.lean ====
/-
  The kernel's program, run and read.  After the pipelined region the edge output array is the edge network of every
  edge's looked-up rows; the program then adds each edge's message — the node network of its destination row and
  edge output — into the row of the node sum that the edge's destination index names.  With every index inside the
  node table the looked-up rows are the plain gathers, and cutting the weight matrices into row blocks beforehand
  changes nothing: the two results are the networks of the gathered rows over the weights as given.
-/
import proofs.«402939_j77352361001089_1_alg».proof.Proof.Gen.KernelIdeal.Frame
import proofs.«402939_j77352361001089_1_alg».proof.Proof.KHost
import proofs.«402939_j77352361001089_1_alg».proof.Proof.KBlocks
import proofs.«402939_j77352361001089_1_alg».proof.Proof.KTake
import proofs.«402939_j77352361001089_1_alg».proof.Proof.ArraysK
import Idealize.ShloMosaic.Lib.StableHlo.Run
import Idealize.ShloMosaic.Lib.Pipeline.Value

noncomputable section

open Idealize.ShloMosaic Idealize.ShloMosaic.TcCoe Idealize.SL.Sem Idealize.ShloMosaic.StableHlo
open Idealize.ShloMosaic.Pipeline (Dat)

namespace Cert.KernelIdeal.RunValue

open Cert.KernelIdeal Cert.KernelIdeal.Gen Cert

variable (m : (ℓ : Loc nD τ sig) → Buf (Elt Ideal) ℓ) (ρ : Dev nD → PrngReg)

/-- The node table's rows at the destination indices. -/
def dstRows (c : Dev nD) : FVec Ideal S3200000x32 .f32 :=
  Host.gather gather_S100000x32_S3200000x1_S3200000x32_1_0_n_n_0_1_132 (m ((c : Thread nD τ).loc main_arg0)) (Take.wrapIdx (m ((c : Thread nD τ).loc main_arg3)))

/-- The node table's rows at the source indices. -/
def srcRows (c : Dev nD) : FVec Ideal S3200000x32 .f32 :=
  Host.gather gather_S100000x32_S3200000x1_S3200000x32_1_0_n_n_0_1_132 (m ((c : Thread nD τ).loc main_arg0)) (Take.wrapIdx (m ((c : Thread nD τ).loc main_arg2)))

/-- The edge output: the edge network of every edge's rows. -/
def emOut (c : Dev nD) : FVec Ideal S3200000x6 .f32 :=
  EdgeNet.emArr (dstRows m c) (srcRows m c) (m ((c : Thread nD τ).loc main_arg1)) (m ((c : Thread nD τ).loc main_arg4)) (m ((c : Thread nD τ).loc main_arg5)) (m ((c : Thread nD τ).loc main_arg6)) (m ((c : Thread nD τ).loc main_arg7))

/-- The messages: the node network of every edge's destination row and edge output. -/
def msgOut (c : Dev nD) : FVec Ideal S3200000x32 .f32 :=
  EdgeNet.msgArr (dstRows m c) (emOut m c) (m ((c : Thread nD τ).loc main_arg8)) (m ((c : Thread nD τ).loc main_arg9)) (m ((c : Thread nD τ).loc main_arg10)) (m ((c : Thread nD τ).loc main_arg11))

/-- The node sum: each edge's message added into the row its destination index names, from zero. -/
def nmOut (c : Dev nD) : FVec Ideal S100000x32 .f32 :=
  Host.scatterAdd scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 (m ((c : Thread nD τ).loc main_arg3))) (msgOut m c)

/-- Every source and destination index lies in [0, 99999] as a signed word, on every core. -/
def IdxInRange : Prop :=
  ∀ c : Dev nD,
    (∀ i : S3200000.Idx, IntOp.cmpi .sge ((m ((c : Thread nD τ).loc main_arg2)) i) 0#32 = 1#1 ∧ IntOp.cmpi .sle ((m ((c : Thread nD τ).loc main_arg2)) i) 99999#32 = 1#1)
    ∧ (∀ i : S3200000.Idx, IntOp.cmpi .sge ((m ((c : Thread nD τ).loc main_arg3)) i) 0#32 = 1#1 ∧ IntOp.cmpi .sle ((m ((c : Thread nD τ).loc main_arg3)) i) 99999#32 = 1#1)

/-- The edge network over the arrays as the region finds them is the edge output. -/
theorem em_value (hidx : IdxInRange m) (c : Dev nD) : (EdgeNet.emK (V m c main_v0) (V m c main_v1) (V m c main_arg1) (V m c main_v2) (V m c main_v3) (V m c main_v4) (V m c main_v5) (V m c main_arg6) (V m c main_v6)) = emOut m c := by
  rw [HostValue.V_dstRows, HostValue.V_srcRows, V_main_arg1, HostValue.V_We1d, HostValue.V_We1s, HostValue.V_We1e,
    HostValue.V_be1, V_main_arg6, HostValue.V_be2,
    Take.takeRows_eq_gather _ _ (fun i => ((hidx c).2 i).1) (fun i => ((hidx c).2 i).2),
    Take.takeRows_eq_gather _ _ (fun i => ((hidx c).1 i).1) (fun i => ((hidx c).1 i).2)]
  exact EdgeNet.emK_eq_emArr _ _ _ _ _ _ _ _ _ _ _ _

/-- The node network over the arrays as the region finds them is the message array. -/
theorem msg_value (hidx : IdxInRange m) (c : Dev nD) :
    EdgeNet.msgK (V m c main_v0) (EdgeNet.emK (V m c main_v0) (V m c main_v1) (V m c main_arg1) (V m c main_v2) (V m c main_v3) (V m c main_v4) (V m c main_v5) (V m c main_arg6) (V m c main_v6))
        (V m c main_v7) (V m c main_v8) (V m c main_v9) (V m c main_arg10) (V m c main_v10) = msgOut m c := by
  rw [em_value m hidx c, HostValue.V_dstRows, HostValue.V_Wn1d, HostValue.V_Wn1e, HostValue.V_bn1, V_main_arg10, HostValue.V_bn2,
    Take.takeRows_eq_gather _ _ (fun i => ((hidx c).2 i).1) (fun i => ((hidx c).2 i).2)]
  exact EdgeNet.msgK_eq_msgArr _ _ _ _ _ _ _ _ _ _

/-- What the lines after the region leave in the node sum: the scatter-add of the message array the region wrote. -/
theorem tail_value (c : Dev nD) :
    Pipeline.afterTail₀ cfgs (dats (F := Ideal) m) 0 (V0 m) [hostOps1] c main_v14
      = Host.scatterAdd scatter_S100000x32_S3200000x1_S3200000x32_1_0_0_1
          (broadcastInDim S100000x32 ![] bcast_S_S100000x32 (constant (F := Ideal) S_ .f32 0x00000000#32))
          (broadcastInDim S3200000x1 ![0] bcast_S3200000_S3200000x1_0 (m ((c : Thread nD τ).loc main_arg3)))
          ((dats (F := Ideal) m 0 c).arrAt 15 cfg0.N) := by
  unfold Pipeline.afterTail₀
  show StableHlo.after hostOps1 _ (Proc.devRef .tc main_v14) = _
  after_results
  have hmsg : Pipeline.withArrays (cfgs 0).spec c (V0 m c) (fun w => (dats (F := Ideal) m 0 c).arrAt w (cfgs 0).N) (Proc.devRef .tc main_v11_1)
      = (dats (F := Ideal) m 0 c).arrAt 15 cfg0.N := Pipeline.withArrays_arr spec0 launch0.win.arr_inj c _ _ 15
  have hdst : Pipeline.withArrays (cfgs 0).spec c (V0 m c) (fun w => (dats (F := Ideal) m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  rw [hdst, hmsg]

/-- THE RUN: every weakly fair execution ends with the node sum and the edge output at the two networks of the
    gathered rows, and the arguments as launched. -/
theorem run (hidx : IdxInRange m) :
    θ_run defs (onTc (τ := τ) (main (F := Ideal))) ⟨m, fun _ => 0, ρ⟩ fun r => ∀ c : Dev nD,
      r.2.mem ((c.tc : Thread nD τ).loc main_v14) = nmOut m c
      ∧ r.2.mem ((c.tc : Thread nD τ).loc main_v11_0) = emOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
    ⟨((h c).2 main_v14 (Pipeline.mem_restRefs_of main_v14 (by decide) (by decide))).trans
        ((tail_value m c).trans (by rw [BlockValue.final_msg m c, msg_value m hidx c]; rfl)),
      ((h c).1 14).trans ((BlockValue.final_em m c).trans (em_value m hidx c)),
      (((h c).2 main_arg0 (Pipeline.mem_restRefs_of main_arg0 (by decide) (by decide))).trans (W_main_arg0 m (dats m) c)),
      (((h c).1 2).trans (((dats m 0 c).arrAt_in 2 rfl _).trans ((A_eq m c 2).trans (V_main_arg1 m c)))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).1 7).trans (((dats m 0 c).arrAt_in 7 rfl _).trans ((A_eq m c 7).trans (V_main_arg6 m c)))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).1 12).trans (((dats m 0 c).arrAt_in 12 rfl _).trans ((A_eq m c 12).trans (V_main_arg10 m c)))),
      (((h c).2 main_arg11 (Pipeline.mem_restRefs_of main_arg11 (by decide) (by decide))).trans (W_main_arg11 m (dats m) c))⟩)
    (run_main m ρ)

end Cert.KernelIdeal.RunValue

end
-- ==== Proof.RefValue.lean ====
/-
  The reference, read entry by entry: its edge output is the edge network of each edge's gathered rows, and the
  array it scatters is the node network of each edge's destination row and edge output.  The reference multiplies
  the concatenated row (destination, source, edge features) with the whole first-layer matrix; entry k of the
  concatenation is entry k of the first piece for k < 32, entry k − 32 of the second for 32 ≤ k < 64 and entry k − 64
  of the third beyond, so the sum over its 70 columns is the sum of the three pieces' sums against the matrix's
  three row blocks (likewise 38 = 32 + 6 for the node network).  The bias vector is repeated down the rows.
-/
import proofs.«402939_j77352361001089_1_alg».proof.Proof.Gen.ReferenceIdeal.Run
import proofs.«402939_j77352361001089_1_alg».proof.Proof.Gen.ReferenceIdeal.Read
import proofs.«402939_j77352361001089_1_alg».proof.Proof.Arrays
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.EdgeNet

/-! ### Where a matrix product reads its operands and a repeated bias vector its entry, in coordinates: entry (e, j) of a
    product reads row e of the left operand at column k and row k of the right at column j; entry (e, j) of a bias vector
    repeated down the rows is its entry j. -/

theorem lidx21 (e : Fin 3200000) (j : Fin 6) (k : Fin 32) : lidx_main_v21 (ix2 e j) k = ix2 e k :=
  funext fun a => Fin.ext (by match a with | ⟨0, _⟩ => rfl | ⟨1, _⟩ => rfl)

theorem ridx21 (e : Fin 3200000) (j : Fin 6) (k : Fin 32) : ridx_main_v21 (ix2 e j) k = ix2 k j :=
  funext fun a => Fin.ext (by match a with | ⟨0, _⟩ => rfl | ⟨1, _⟩ => rfl)

theorem lidx15 (e : Fin 3200000) (j : Fin 32) (k : Fin 70) : lidx_main_v15 (ix2 e j) k = ix2 e k :=
  funext fun a => Fin.ext (by match a with | ⟨0, _⟩ => rfl | ⟨1, _⟩ => rfl)

theorem ridx15 (e : Fin 3200000) (j : Fin 32) (k : Fin 70) : ridx_main_v15 (ix2 e j) k = ix2 k j :=
  funext fun a => Fin.ext (by match a with | ⟨0, _⟩ => rfl | ⟨1, _⟩ => rfl)

theorem bidx17 (e : Fin 3200000) (j : Fin 32) : idx_main_v16 (idx_main_v17 (ix2 e j)) = ix1 j :=
  funext fun a => Fin.ext (by match a with | ⟨0, _⟩ => rfl)

theorem bidx23 (e : Fin 3200000) (j : Fin 6) : idx_main_v22 (idx_main_v23 (ix2 e j)) = ix1 j :=
  funext fun a => Fin.ext (by match a with | ⟨0, _⟩ => rfl)

/-! ### The concatenated row, entry by entry -/

/-- Entry `k < 32` of the concatenation of three pieces is entry `k` of the first. -/
theorem cat3_fst (A B : (⟨S3200000x32, .f32⟩ : BufTy).Contents (Elt Ideal)) (C : (⟨S3200000x6, .f32⟩ : BufTy).Contents (Elt Ideal))
    (e : Fin 3200000) (k : Fin 32) :
    concatenate S3200000x70 1 [⟨S3200000x32, A⟩, ⟨S3200000x32, B⟩, ⟨S3200000x6, C⟩]
        concatenates_S3200000x32_S3200000x32_S3200000x6_S3200000x70_d1 (ix2 e (⟨k.val, by omega⟩ : Fin 70)) = A (ix2 e k) :=
  concatenate_apply_piece (1 : Fin S3200000x70.rank) _ _ _ 0 (by show 0 < 3; omega) S3200000x32 A rfl rfl 0 rfl (ix2 e k)
    (fun b => match b with | ⟨0, _⟩ => fun _ => rfl | ⟨1, _⟩ => fun h => absurd rfl h) (Nat.zero_add _)

/-- Entry `32 + k`, `k < 32`, of the concatenation of three pieces is entry `k` of the second. -/
theorem cat3_snd (A B : (⟨S3200000x32, .f32⟩ : BufTy).Contents (Elt Ideal)) (C : (⟨S3200000x6, .f32⟩ : BufTy).Contents (Elt Ideal))
    (e : Fin 3200000) (k : Fin 32) :
    concatenate S3200000x70 1 [⟨S3200000x32, A⟩, ⟨S3200000x32, B⟩, ⟨S3200000x6, C⟩]
        concatenates_S3200000x32_S3200000x32_S3200000x6_S3200000x70_d1 (ix2 e (⟨32 + k.val, by omega⟩ : Fin 70)) = B (ix2 e k) :=
  concatenate_apply_piece (1 : Fin S3200000x70.rank) _ _ _ 1 (by show 1 < 3; omega) S3200000x32 B rfl rfl 32 rfl (ix2 e k)
    (fun b => match b with | ⟨0, _⟩ => fun _ => rfl | ⟨1, _⟩ => fun h => absurd rfl h) rfl

/-- Entry `64 + k`, `k < 6`, of the concatenation of three pieces is entry `k` of the third. -/
theorem cat3_thd (A B : (⟨S3200000x32, .f32⟩ : BufTy).Contents (Elt Ideal)) (C : (⟨S3200000x6, .f32⟩ : BufTy).Contents (Elt Ideal))
    (e : Fin 3200000) (k : Fin 6) :
    concatenate S3200000x70 1 [⟨S3200000x32, A⟩, ⟨S3200000x32, B⟩, ⟨S3200000x6, C⟩]
        concatenates_S3200000x32_S3200000x32_S3200000x6_S3200000x70_d1 (ix2 e (⟨64 + k.val, by omega⟩ : Fin 70)) = C (ix2 e k) :=
  concatenate_apply_piece (1 : Fin S3200000x70.rank) _ _ _ 2 (by show 2 < 3; omega) S3200000x6 C rfl rfl 64 rfl (ix2 e k)
    (fun b => match b with | ⟨0, _⟩ => fun _ => rfl | ⟨1, _⟩ => fun h => absurd rfl h) rfl

/-- The reference's concatenated edge-network input, entry by entry: the three lemmas above at its own three pieces. -/
theorem v14_fst (x0 : (⟨S100000x32, .f32⟩ : BufTy).Contents (Elt Ideal)) (x1 : (⟨S3200000x6, .f32⟩ : BufTy).Contents (Elt Ideal))
    (x2 x3 : (⟨S3200000, .i32⟩ : BufTy).Contents (Elt Ideal)) (e : Fin 3200000) (k : Fin 32) :
    val_main_v14 (F := Ideal) x0 x1 x2 x3 (ix2 e (⟨k.val, by omega⟩ : Fin 70)) = val_main_v6 (F := Ideal) x0 x3 (ix2 e k) := by
  unfold val_main_v14
  generalize val_main_v6 (F := Ideal) x0 x3 = D
  generalize val_main_v13 (F := Ideal) x0 x2 = S
  exact cat3_fst D S x1 e k

theorem v14_snd (x0 : (⟨S100000x32, .f32⟩ : BufTy).Contents (Elt Ideal)) (x1 : (⟨S3200000x6, .f32⟩ : BufTy).Contents (Elt Ideal))
    (x2 x3 : (⟨S3200000, .i32⟩ : BufTy).Contents (Elt Ideal)) (e : Fin 3200000) (k : Fin 32) :
    val_main_v14 (F := Ideal) x0 x1 x2 x3 (ix2 e (⟨32 + k.val, by omega⟩ : Fin 70)) = val_main_v13 (F := Ideal) x0 x2 (ix2 e k) := by
  unfold val_main_v14
  generalize val_main_v6 (F := Ideal) x0 x3 = D
  generalize val_main_v13 (F := Ideal) x0 x2 = S
  exact cat3_snd D S x1 e k

theorem v14_thd (x0 : (⟨S100000x32, .f32⟩ : BufTy).Contents (Elt Ideal)) (x1 : (⟨S3200000x6, .f32⟩ : BufTy).Contents (Elt Ideal))
    (x2 x3 : (⟨S3200000, .i32⟩ : BufTy).Contents (Elt Ideal)) (e : Fin 3200000) (k : Fin 6) :
    val_main_v14 (F := Ideal) x0 x1 x2 x3 (ix2 e (⟨64 + k.val, by omega⟩ : Fin 70)) = x1 (ix2 e k) := by
  unfold val_main_v14
  generalize val_main_v6 (F := Ideal) x0 x3 = D
  generalize val_main_v13 (F := Ideal) x0 x2 = S
  exact cat3_thd D S x1 e k

/-- One hidden unit of the reference's edge network. -/
theorem v20_at (x0 : (⟨S100000x32, .f32⟩ : BufTy).Contents (Elt Ideal)) (x1 : (⟨S3200000x6, .f32⟩ : BufTy).Contents (Elt Ideal))
    (x2 x3 : (⟨S3200000, .i32⟩ : BufTy).Contents (Elt Ideal)) (x4 : (⟨S70x32, .f32⟩ : BufTy).Contents (Elt Ideal))
    (x5 : (⟨S32, .f32⟩ : BufTy).Contents (Elt Ideal)) (e : Fin 3200000) (k : Fin 32) :
    val_main_v20 (F := Ideal) x0 x1 x2 x3 x4 x5 (ix2 e k)
      = hid1 (fun c => val_main_v6 (F := Ideal) x0 x3 (ix2 e c)) (fun c => val_main_v13 (F := Ideal) x0 x2 (ix2 e c))
          (fun c => x1 (ix2 e c))
          (fun c j => x4 (ix2 (⟨c.val, by omega⟩ : Fin 70) j)) (fun c j => x4 (ix2 (⟨32 + c.val, by omega⟩ : Fin 70) j))
          (fun c j => x4 (ix2 (⟨64 + c.val, by omega⟩ : Fin 70) j)) (fun j => x5 (ix1 j)) k := by
  rw [val_main_v20_apply, val_main_v18_apply, val_main_v19_apply, val_main_cst_apply, val_main_v15_apply,
    val_main_v17_apply, val_main_v16_apply, bidx17]
  have hs : (∑ c : Fin 70, val_main_v14 (F := Ideal) x0 x1 x2 x3 (lidx_main_v15 (ix2 e k) c) * x4 (ridx_main_v15 (ix2 e k) c))
      = ∑ c : Fin 70, val_main_v14 (F := Ideal) x0 x1 x2 x3 (ix2 e c) * x4 (ix2 c k) :=
    Finset.sum_congr rfl fun c _ => by rw [lidx15, ridx15]
  rw [hs, sum_70]
  simp only [v14_fst, v14_snd, v14_thd]
  generalize val_main_v6 (F := Ideal) x0 x3 = D
  generalize val_main_v13 (F := Ideal) x0 x2 = S
  rfl

/-- The reference's edge output is the edge network over its two gathered arrays. -/
theorem ref_em (x0 : (⟨S100000x32, .f32⟩ : BufTy).Contents (Elt Ideal)) (x1 : (⟨S3200000x6, .f32⟩ : BufTy).Contents (Elt Ideal))
    (x2 x3 : (⟨S3200000, .i32⟩ : BufTy).Contents (Elt Ideal)) (x4 : (⟨S70x32, .f32⟩ : BufTy).Contents (Elt Ideal))
    (x5 : (⟨S32, .f32⟩ : BufTy).Contents (Elt Ideal)) (x6 : (⟨S32x6, .f32⟩ : BufTy).Contents (Elt Ideal))
    (x7 : (⟨S6, .f32⟩ : BufTy).Contents (Elt Ideal)) :
    val_main_v24 (F := Ideal) x0 x1 x2 x3 x4 x5 x6 x7
      = emArr (val_main_v6 (F := Ideal) x0 x3) (val_main_v13 (F := Ideal) x0 x2) x1 x4 x5 x6 x7 := by
  funext i
  obtain ⟨e, j, rfl⟩ : ∃ (e : Fin 3200000) (j : Fin 6), i = ix2 e j := ⟨i 0, i 1, eq_ix2 i⟩
  rw [emArr_apply, val_main_v24_apply, val_main_v21_apply, val_main_v23_apply, val_main_v22_apply, bidx23]
  simp only [lidx21, ridx21, v20_at]
  generalize val_main_v6 (F := Ideal) x0 x3 = D
  generalize val_main_v13 (F := Ideal) x0 x2 = S
  rfl

/-! ### The same for the node network: its products, its bias vectors and its two-piece concatenated row -/

theorem lidx32 (e : Fin 3200000) (j : Fin 32) (k : Fin 64) : lidx_main_v32 (ix2 e j) k = ix2 e k :=
  funext fun a => Fin.ext (by match a with | ⟨0, _⟩ => rfl | ⟨1, _⟩ => rfl)

theorem ridx32 (e : Fin 3200000) (j : Fin 32) (k : Fin 64) : ridx_main_v32 (ix2 e j) k = ix2 k j :=
  funext fun a => Fin.ext (by match a with | ⟨0, _⟩ => rfl | ⟨1, _⟩ => rfl)

theorem lidx26 (e : Fin 3200000) (j : Fin 64) (k : Fin 38) : lidx_main_v26 (ix2 e j) k = ix2 e k :=
  funext fun a => Fin.ext (by match a with | ⟨0, _⟩ => rfl | ⟨1, _⟩ => rfl)

theorem ridx26 (e : Fin 3200000) (j : Fin 64) (k : Fin 38) : ridx_main_v26 (ix2 e j) k = ix2 k j :=
  funext fun a => Fin.ext (by match a with | ⟨0, _⟩ => rfl | ⟨1, _⟩ => rfl)

theorem bidx28 (e : Fin 3200000) (j : Fin 64) : idx_main_v27 (idx_main_v28 (ix2 e j)) = ix1 j :=
  funext fun a => Fin.ext (by match a with | ⟨0, _⟩ => rfl)

theorem bidx34 (e : Fin 3200000) (j : Fin 32) : idx_main_v33 (idx_main_v34 (ix2 e j)) = ix1 j :=
  funext fun a => Fin.ext (by match a with | ⟨0, _⟩ => rfl)

/-- Entry `k < 32` of the concatenation of two pieces is entry `k` of the first. -/
theorem cat2_fst (A : (⟨S3200000x32, .f32⟩ : BufTy).Contents (Elt Ideal)) (B : (⟨S3200000x6, .f32⟩ : BufTy).Contents (Elt Ideal))
    (e : Fin 3200000) (k : Fin 32) :
    concatenate S3200000x38 1 [⟨S3200000x32, A⟩, ⟨S3200000x6, B⟩]
        concatenates_S3200000x32_S3200000x6_S3200000x38_d1 (ix2 e (⟨k.val, by omega⟩ : Fin 38)) = A (ix2 e k) :=
  concatenate_apply_piece (1 : Fin S3200000x38.rank) _ _ _ 0 (by show 0 < 2; omega) S3200000x32 A rfl rfl 0 rfl (ix2 e k)
    (fun b => match b with | ⟨0, _⟩ => fun _ => rfl | ⟨1, _⟩ => fun h => absurd rfl h) (Nat.zero_add _)

/-- Entry `32 + k`, `k < 6`, of the concatenation of two pieces is entry `k` of the second. -/
theorem cat2_snd (A : (⟨S3200000x32, .f32⟩ : BufTy).Contents (Elt Ideal)) (B : (⟨S3200000x6, .f32⟩ : BufTy).Contents (Elt Ideal))
    (e : Fin 3200000) (k : Fin 6) :
    concatenate S3200000x38 1 [⟨S3200000x32, A⟩, ⟨S3200000x6, B⟩]
        concatenates_S3200000x32_S3200000x6_S3200000x38_d1 (ix2 e (⟨32 + k.val, by omega⟩ : Fin 38)) = B (ix2 e k) :=
  concatenate_apply_piece (1 : Fin S3200000x38.rank) _ _ _ 1 (by show 1 < 2; omega) S3200000x6 B rfl rfl 32 rfl (ix2 e k)
    (fun b => match b with | ⟨0, _⟩ => fun _ => rfl | ⟨1, _⟩ => fun h => absurd rfl h) rfl

/-- The reference's concatenated node-network input, entry by entry: the two lemmas above at its own two pieces. -/
theorem v25_fst (x0 : (⟨S100000x32, .f32⟩ : BufTy).Contents (Elt Ideal)) (x1 : (⟨S3200000x6, .f32⟩ : BufTy).Contents (Elt Ideal))
    (x2 x3 : (⟨S3200000, .i32⟩ : BufTy).Contents (Elt Ideal)) (x4 : (⟨S70x32, .f32⟩ : BufTy).Contents (Elt Ideal))
    (x5 : (⟨S32, .f32⟩ : BufTy).Contents (Elt Ideal)) (x6 : (⟨S32x6, .f32⟩ : BufTy).Contents (Elt Ideal))
    (x7 : (⟨S6, .f32⟩ : BufTy).Contents (Elt Ideal)) (e : Fin 3200000) (k : Fin 32) :
    val_main_v25 (F := Ideal) x0 x1 x2 x3 x4 x5 x6 x7 (ix2 e (⟨k.val, by omega⟩ : Fin 38)) = val_main_v6 (F := Ideal) x0 x3 (ix2 e k) := by
  unfold val_main_v25
  generalize val_main_v6 (F := Ideal) x0 x3 = D
  generalize val_main_v24 (F := Ideal) x0 x1 x2 x3 x4 x5 x6 x7 = E
  exact cat2_fst D E e k

theorem v25_snd (x0 : (⟨S100000x32, .f32⟩ : BufTy).Contents (Elt Ideal)) (x1 : (⟨S3200000x6, .f32⟩ : BufTy).Contents (Elt Ideal))
    (x2 x3 : (⟨S3200000, .i32⟩ : BufTy).Contents (Elt Ideal)) (x4 : (⟨S70x32, .f32⟩ : BufTy).Contents (Elt Ideal))
    (x5 : (⟨S32, .f32⟩ : BufTy).Contents (Elt Ideal)) (x6 : (⟨S32x6, .f32⟩ : BufTy).Contents (Elt Ideal))
    (x7 : (⟨S6, .f32⟩ : BufTy).Contents (Elt Ideal)) (e : Fin 3200000) (k : Fin 6) :
    val_main_v25 (F := Ideal) x0 x1 x2 x3 x4 x5 x6 x7 (ix2 e (⟨32 + k.val, by omega⟩ : Fin 38))
      = val_main_v24 (F := Ideal) x0 x1 x2 x3 x4 x5 x6 x7 (ix2 e k) := by
  unfold val_main_v25
  generalize val_main_v6 (F := Ideal) x0 x3 = D
  generalize val_main_v24 (F := Ideal) x0 x1 x2 x3 x4 x5 x6 x7 = E
  exact cat2_snd D E e k

/-- One hidden unit of the reference's node network. -/
theorem v31_at (x0 : (⟨S100000x32, .f32⟩ : BufTy).Contents (Elt Ideal)) (x1 : (⟨S3200000x6, .f32⟩ : BufTy).Contents (Elt Ideal))
    (x2 x3 : (⟨S3200000, .i32⟩ : BufTy).Contents (Elt Ideal)) (x4 : (⟨S70x32, .f32⟩ : BufTy).Contents (Elt Ideal))
    (x5 : (⟨S32, .f32⟩ : BufTy).Contents (Elt Ideal)) (x6 : (⟨S32x6, .f32⟩ : BufTy).Contents (Elt Ideal))
    (x7 : (⟨S6, .f32⟩ : BufTy).Contents (Elt Ideal)) (x8 : (⟨S38x64, .f32⟩ : BufTy).Contents (Elt Ideal))
    (x9 : (⟨S64, .f32⟩ : BufTy).Contents (Elt Ideal)) (e : Fin 3200000) (k : Fin 64) :
    val_main_v31 (F := Ideal) x0 x1 x2 x3 x4 x5 x6 x7 x8 x9 (ix2 e k)
      = hid2 (fun c => val_main_v6 (F := Ideal) x0 x3 (ix2 e c))
          (fun c => val_main_v24 (F := Ideal) x0 x1 x2 x3 x4 x5 x6 x7 (ix2 e c))
          (fun c j => x8 (ix2 (⟨c.val, by omega⟩ : Fin 38) j)) (fun c j => x8 (ix2 (⟨32 + c.val, by omega⟩ : Fin 38) j))
          (fun j => x9 (ix1 j)) k := by
  rw [val_main_v31_apply, val_main_v29_apply, val_main_v30_apply, val_main_cst_3_apply, val_main_v26_apply,
    val_main_v28_apply, val_main_v27_apply, bidx28]
  have hs : (∑ c : Fin 38, val_main_v25 (F := Ideal) x0 x1 x2 x3 x4 x5 x6 x7 (lidx_main_v26 (ix2 e k) c) * x8 (ridx_main_v26 (ix2 e k) c))
      = ∑ c : Fin 38, val_main_v25 (F := Ideal) x0 x1 x2 x3 x4 x5 x6 x7 (ix2 e c) * x8 (ix2 c k) :=
    Finset.sum_congr rfl fun c _ => by rw [lidx26, ridx26]
  rw [hs, sum_38]
  simp only [v25_fst, v25_snd]
  generalize val_main_v6 (F := Ideal) x0 x3 = D
  generalize val_main_v24 (F := Ideal) x0 x1 x2 x3 x4 x5 x6 x7 = E
  rfl

/-- The array the reference scatters is the node network over the gathered destination rows and its edge output. -/
theorem ref_msg (x0 : (⟨S100000x32, .f32⟩ : BufTy).Contents (Elt Ideal)) (x1 : (⟨S3200000x6, .f32⟩ : BufTy).Contents (Elt Ideal))
    (x2 x3 : (⟨S3200000, .i32⟩ : BufTy).Contents (Elt Ideal)) (x4 : (⟨S70x32, .f32⟩ : BufTy).Contents (Elt Ideal))
    (x5 : (⟨S32, .f32⟩ : BufTy).Contents (Elt Ideal)) (x6 : (⟨S32x6, .f32⟩ : BufTy).Contents (Elt Ideal))
    (x7 : (⟨S6, .f32⟩ : BufTy).Contents (Elt Ideal)) (x8 : (⟨S38x64, .f32⟩ : BufTy).Contents (Elt Ideal))
    (x9 : (⟨S64, .f32⟩ : BufTy).Contents (Elt Ideal)) (x10 : (⟨S64x32, .f32⟩ : BufTy).Contents (Elt Ideal))
    (x11 : (⟨S32, .f32⟩ : BufTy).Contents (Elt Ideal)) :
    val_main_v35 (F := Ideal) x0 x1 x2 x3 x4 x5 x6 x7 x8 x9 x10 x11
      = msgArr (val_main_v6 (F := Ideal) x0 x3) (val_main_v24 (F := Ideal) x0 x1 x2 x3 x4 x5 x6 x7) x8 x9 x10 x11 := by
  funext i
  obtain ⟨e, j, rfl⟩ : ∃ (e : Fin 3200000) (j : Fin 32), i = ix2 e j := ⟨i 0, i 1, eq_ix2 i⟩
  rw [msgArr_apply, val_main_v35_apply, val_main_v32_apply, val_main_v34_apply, val_main_v33_apply, bidx34]
  simp only [lidx32, ridx32, v31_at]
  generalize val_main_v6 (F := Ideal) x0 x3 = D
  generalize val_main_v24 (F := Ideal) x0 x1 x2 x3 x4 x5 x6 x7 = E
  rfl

end Cert.ReferenceIdeal.RefValue

end
-- ==== Proof.PreIdx.lean ====
/-
  What the precondition says about the two index arrays.  The precondition is one conjunction, all of whose
  conjuncts are "every entry of an array satisfies a test"; its last four say that every source index and every
  destination index is at least 0 and at most 99999 as a signed word.  A conjunction of one-bit words that is 1 has
  every conjunct 1, and an and-reduction of a one-bit array that is 1 has every entry 1.
-/
import proofs.«402939_j77352361001089_1_alg».proof.Pre_finite_inputs
import proofs.«402939_j77352361001089_1_alg».proof.Proof.Gen.Pre_finite_inputs
import Idealize.ShloMosaic.Lib.ValueIdx
import Idealize.ShloMosaic.Lib.Pipeline.Value
import Idealize.ShloMosaic.Lib.ReduceAll
import Idealize.ShloMosaic.Lib.StableHlo.Predicate

noncomputable section

namespace Cert.Pre_finite_inputs.Decode

open Cert.Pre_finite_inputs Idealize.ShloMosaic Idealize.ShloMosaic.ValueIdx

variable {F : FTy → Type} [FloatOps F]

/-- The scalar shape has exactly one index. -/
instance subsingleton_scalar_idx : Subsingleton S_.Idx := ⟨fun a b => funext fun d => d.elim0⟩

/-- A scalar word repeated along the index arrays' axis reads that word at every entry. -/
theorem bcast_word_apply (w : BitVec 32) (i : S3200000.Idx) :
    broadcastInDim S3200000 ![] Facts.bcast_S_S3200000 (constantI S_ 32 w) i = w :=
  broadcastInDim_apply _ Facts.bcast_S_S3200000 (constantI S_ 32 w) i (fun a => a.elim0) (fun a => a.elim0)

/-- "Every entry of an index array passes a comparison against one word", read back: the and-reduction of the
    comparison array being 1 makes the comparison 1 at each entry. -/
theorem all_cmpi_word (c : CmpIPredicate) (a : IVec S3200000 32) (w : BitVec 32)
    (e : Host.reduce IntOp.andi (cmpi c a (broadcastInDim S3200000 ![] Facts.bcast_S_S3200000 (constantI S_ 32 w)))
      (constantI S_ 1 1#1) Facts.reducesTo_S3200000_S_d0 Facts.h_S_ ix0 = 1#1) (i : S3200000.Idx) :
    IntOp.cmpi c (a i) w = 1#1 := by
  have h1 : IntOp.cmpi c (a i) (broadcastInDim S3200000 ![] Facts.bcast_S_S3200000 (constantI S_ 32 w) i) = 1#1 :=
    Host.reduce_andi_all _ _ _ _ ix0 e i
  rwa [bcast_word_apply] at h1

/-- The last stretch of the conjunction: if it is 1, then the comparison array handed to it is 1 everywhere, and every
    source index is at most 99999, every destination index at least 0 and at most 99999. -/
theorem part3_eq_one (a2 a3 : IVec S3200000 32) (w : IVec S_ 1) (v50 : IVec S3200000 1)
    (h : fn_part3 (F := F) a2 a3 w v50 ix0 = 1#1) :
    (Host.reduce IntOp.andi v50 (constantI S_ 1 1#1) Facts.reducesTo_S3200000_S_d0 Facts.h_S_ ix0 = 1#1)
      ∧ (∀ i : S3200000.Idx, IntOp.cmpi .sle (a2 i) 99999#32 = 1#1)
      ∧ (∀ i : S3200000.Idx, IntOp.cmpi .sge (a3 i) 0#32 = 1#1)
      ∧ (∀ i : S3200000.Idx, IntOp.cmpi .sle (a3 i) 99999#32 = 1#1) := by
  dsimp only [fn_part3] at h
  -- a conjunction of one-bit words that is 1 has both conjuncts 1: peel the last four conjuncts off
  obtain ⟨h60, h63⟩ := IntOp.andi_eq_one.1 h
  obtain ⟨h56, h59⟩ := IntOp.andi_eq_one.1 h60
  obtain ⟨h52, h55⟩ := IntOp.andi_eq_one.1 h56
  obtain ⟨-, h51⟩ := IntOp.andi_eq_one.1 h52
  exact ⟨h51, all_cmpi_word _ _ _ h55, all_cmpi_word _ _ _ h59, all_cmpi_word _ _ _ h63⟩

/-- Under the precondition every source index (`a2`) and every destination index (`a3`) lies in [0, 99999] as a
    signed word. -/
theorem idx_in_range (a0 : FVec F S100000x32 .f32) (a1 : FVec F S3200000x6 .f32) (a2 a3 : IVec S3200000 32)
    (a4 : FVec F S70x32 .f32) (a5 : FVec F S32 .f32) (a6 : FVec F S32x6 .f32) (a7 : FVec F S6 .f32)
    (a8 : FVec F S38x64 .f32) (a9 : FVec F S64 .f32) (a10 : FVec F S64x32 .f32) (a11 : FVec F S32 .f32)
    (h : fn (F := F) a0 a1 a2 a3 a4 a5 a6 a7 a8 a9 a10 a11 = fun _ => 1#1) :
    (∀ i : S3200000.Idx, IntOp.cmpi .sge (a2 i) 0#32 = 1#1 ∧ IntOp.cmpi .sle (a2 i) 99999#32 = 1#1)
      ∧ (∀ i : S3200000.Idx, IntOp.cmpi .sge (a3 i) 0#32 = 1#1 ∧ IntOp.cmpi .sle (a3 i) 99999#32 = 1#1) := by
  -- the precondition at the scalar shape's one index
  have h0 : fn (F := F) a0 a1 a2 a3 a4 a5 a6 a7 a8 a9 a10 a11 ix0 = 1#1 := congrFun h ix0
  -- the whole conjunction ends in its last stretch, fed the earlier conjuncts as one word and the first comparison array
  obtain ⟨h51, h55, h59, h63⟩ := part3_eq_one (F := F) a2 a3 _ _ h0
  exact ⟨fun i => ⟨all_cmpi_word _ _ _ h51 i, h55 i⟩, fun i => ⟨h59 i, h63 i⟩⟩

end Cert.Pre_finite_inputs.Decode

end
-- ==== Proof.lean ====
/-
  Message passing on a graph: for every edge, an edge network (70 → 32 → 6, relu between) of the concatenated
  destination row, source row and edge features gives the edge output; a node network (38 → 64 → 32) of the
  concatenated destination row and edge output gives the edge's message; the messages are summed into their
  destination nodes.  One program multiplies each concatenated row with the whole first-layer matrix; the other
  looks the rows up, cuts the matrices into the row blocks that meet the pieces, and evaluates both networks on
  blocks of 4000 edges, adding the pieces' products.  Over the extended reals a sum over 70 (38) terms is the sum of
  the sums over its pieces, format changes are the identity, and a product into a zero accumulator is the plain
  sum, so the two programs compute the same two arrays wherever both look up the same rows.  They do when every
  index lies inside the node table, which the precondition states: one program fills rows at out-of-range indices
  with a fill value where the other clamps the index, and the filled rows would differ.
  The frames of the two kernel programs are the generated ones; the reference's frame is its generated run with the
  results dropped; no rewrite separates the kernel from its idealization.
-/
import proofs.«402939_j77352361001089_1_alg».proof.Defs
import proofs.«402939_j77352361001089_1_alg».proof.Proof.Gen.Kernel
import proofs.«402939_j77352361001089_1_alg».proof.Proof.Gen.Kernel.Skeleton
import proofs.«402939_j77352361001089_1_alg».proof.Proof.Gen.Kernel.Launch
import proofs.«402939_j77352361001089_1_alg».proof.Proof.Gen.Kernel.Points
import proofs.«402939_j77352361001089_1_alg».proof.Proof.Gen.Kernel.Frame
import proofs.«402939_j77352361001089_1_alg».proof.Proof.Gen.KernelIdeal
import proofs.«402939_j77352361001089_1_alg».proof.Proof.Gen.KernelIdeal.Skeleton
import proofs.«402939_j77352361001089_1_alg».proof.Proof.Gen.KernelIdeal.Launch
import proofs.«402939_j77352361001089_1_alg».proof.Proof.Gen.KernelIdeal.Points
import proofs.«402939_j77352361001089_1_alg».proof.Proof.Gen.KernelIdeal.Frame
import proofs.«402939_j77352361001089_1_alg».proof.Proof.Gen.ReferenceIdeal
import proofs.«402939_j77352361001089_1_alg».proof.Proof.Gen.ReferenceIdeal.Run
import proofs.«402939_j77352361001089_1_alg».proof.Proof.Gen.ReferenceIdeal.Read
import proofs.«402939_j77352361001089_1_alg».proof.Proof.Gen.Pre_finite_inputs
import proofs.«402939_j77352361001089_1_alg».proof.Proof.KRun
import proofs.«402939_j77352361001089_1_alg».proof.Proof.RefValue
import proofs.«402939_j77352361001089_1_alg».proof.Proof.PreIdx
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Under the precondition both programs end with the node sum and the edge output at the two networks of the rows
    gathered at the (in-range) indices: the kernel's program by its run read through the region's blocks, the
    reference by its run read operation by operation; the arguments agree, so the two terms are one. -/
theorem algebraic : Cert.algebraic_KernelIdeal_ReferenceIdeal := by
  intro m ρ m' ρ' hpre hagree
  have hidx : Cert.KernelIdeal.RunValue.IdxInRange m := fun c =>
    Cert.Pre_finite_inputs.Decode.idx_in_range _ _ _ _ _ _ _ _ _ _ _ _ (hpre c)
  refine ⟨fun c => Cert.KernelIdeal.RunValue.nmOut m c, fun c => Cert.KernelIdeal.RunValue.emOut m c,
    Cert.KernelIdeal.RunValue.run m ρ hidx, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [a0, a1, a2, a3, a4, a5, a6, a7, a8, a9, a10, a11]
    refine (Cert.ReferenceIdeal.Read.val_main_v38_eq _ _ _ _ _ _ _ _ _ _ _ _).trans ?_
    unfold Cert.ReferenceIdeal.Read.val_main_v38
    rw [Cert.ReferenceIdeal.RefValue.ref_msg, Cert.ReferenceIdeal.RefValue.ref_em]
    rfl
  · obtain ⟨a0, a1, a2, a3, a4, a5, a6, a7, a8, a9, a10, a11⟩ := hagree c
    rw [a0, a1, a2, a3, a4, a5, a6, a7]
    refine (Cert.ReferenceIdeal.Read.val_main_v24_eq _ _ _ _ _ _ _ _).trans ?_
    rw [Cert.ReferenceIdeal.RefValue.ref_em]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
